-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x21 : Shape := ⟨2, ![500000, 21]⟩
abbrev S500000x1 : Shape := ⟨2, ![500000, 1]⟩
abbrev S21x1000x16 : Shape := ⟨3, ![21, 1000, 16]⟩
abbrev S8x1 : Shape := ⟨2, ![8, 1]⟩
abbrev S8 : Shape := ⟨1, ![8]⟩
abbrev S32x344 : Shape := ⟨2, ![32, 344]⟩
abbrev S32 : Shape := ⟨1, ![32]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S21x1000x16 : S_.BroadcastsInDim S21x1000x16 (![] : Fin 0 → Fin S21x1000x16.rank)
  reducesTo_S21x1000x16_S_d0_1_2 : S21x1000x16.ReducesTo [0, 1, 2] S_
  bcast_S_S8x1 : S_.BroadcastsInDim S8x1 (![] : Fin 0 → Fin S8x1.rank)
  reducesTo_S8x1_S_d0_1 : S8x1.ReducesTo [0, 1] S_
  bcast_S_S8 : S_.BroadcastsInDim S8 (![] : Fin 0 → Fin S8.rank)
  reducesTo_S8_S_d0 : S8.ReducesTo [0] S_
  bcast_S_S32x344 : S_.BroadcastsInDim S32x344 (![] : Fin 0 → Fin S32x344.rank)
  reducesTo_S32x344_S_d0_1 : S32x344.ReducesTo [0, 1] S_
  bcast_S_S32 : S_.BroadcastsInDim S32 (![] : Fin 0 → Fin S32.rank)
  reducesTo_S32_S_d0 : S32.ReducesTo [0] S_
  bcast_S_S500000x21 : S_.BroadcastsInDim S500000x21 (![] : Fin 0 → Fin S500000x21.rank)
  reducesTo_S500000x21_S_d0_1 : S500000x21.ReducesTo [0, 1] S_

variable [Facts]

def fn_part2 {F : FTy → Type} [FloatOps F] (main_arg0 : IVec S500000x21 32) (main_v32 : IVec S_ 1) (main_c_12 : IVec S_ 32) : IVec S_ 1 :=
  let main_v33 : IVec S500000x21 32 := broadcastInDim S500000x21 ![] bcast_S_S500000x21 main_c_12
  let main_v34 : IVec S500000x21 1 := cmpi .slt main_arg0 main_v33
  let main_c_13 : IVec S_ 1 := constantI S_ 1 1#1
  let main_v35 : IVec S_ 1 := (fun x v => Host.reduce IntOp.andi x v reducesTo_S500000x21_S_d0_1 h_S_) main_v34 main_c_13
  let main_v36 : IVec S_ 1 := andi main_v32 main_v35
  main_v36

def fn_part1 {F : FTy → Type} [FloatOps F] (main_arg0 : IVec S500000x21 32) (main_arg5 : FVec F S32x344 .f32) (main_arg6 : FVec F S32 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S32x344 .f32 := Host.absf main_arg5
  let main_cst_6 : FVec F S_ .f32 := constant S_ .f32 0x7F800000#32
  let main_v20 : FVec F S32x344 .f32 := broadcastInDim S32x344 ![] bcast_S_S32x344 main_cst_6
  let main_v21 : IVec S32x344 1 := cmpf .olt main_v19 main_v20
  let main_c_7 : IVec S_ 1 := constantI S_ 1 1#1
  let main_v22 : IVec S_ 1 := (fun x v => Host.reduce IntOp.andi x v reducesTo_S32x344_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_c_10 : IVec S_ 32 := constantI S_ 32 0#32
  let main_v29 : IVec S500000x21 32 := broadcastInDim S500000x21 ![] bcast_S_S500000x21 main_c_10
  let main_v30 : IVec S500000x21 1 := cmpi .sge main_arg0 main_v29
  let main_c_11 : IVec S_ 1 := constantI S_ 1 1#1
  let main_v31 : IVec S_ 1 := (fun x v => Host.reduce IntOp.andi x v reducesTo_S500000x21_S_d0_1 h_S_) main_v30 main_c_11
  let main_v32 : IVec S_ 1 := andi main_v28 main_v31
  let main_c_12 : IVec S_ 32 := constantI S_ 32 1000#32
  fn_part2 (F := F) main_arg0 main_v32 main_c_12

def fn {F : FTy → Type} [FloatOps F] (main_arg0 : IVec S500000x21 32) (main_arg1 : FVec F S500000x1 .f32) (main_arg2 : FVec F S21x1000x16 .f32) (main_arg3 : FVec F S8x1 .f32) (main_arg4 : FVec F S8 .f32) (main_arg5 : FVec F S32x344 .f32) (main_arg6 : FVec F S32 .f32) : IVec S_ 1 :=
  let main_v0 : FVec F S500000x1 .f32 := Host.absf main_arg1
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S21x1000x16 .f32 := Host.absf main_arg2
  let main_cst_0 : FVec F S_ .f32 := constant S_ .f32 0x7F800000#32
  let main_v5 : FVec F S21x1000x16 .f32 := broadcastInDim S21x1000x16 ![] bcast_S_S21x1000x16 main_cst_0
  let main_v6 : IVec S21x1000x16 1 := cmpf .olt main_v4 main_v5
  let main_c_1 : IVec S_ 1 := constantI S_ 1 1#1
  let main_v7 : IVec S_ 1 := (fun x v => Host.reduce IntOp.andi x v reducesTo_S21x1000x16_S_d0_1_2 h_S_) main_v6 main_c_1
  let main_v8 : IVec S_ 1 := andi main_v3 main_v7
  let main_v9 : FVec F S8x1 .f32 := Host.absf main_arg3
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg0 main_arg5 main_arg6 main_v13 main_v16
-- ==== Kernel.lean ====
abbrev S500000x21 : Shape := ⟨2, ![500000, 21]⟩
abbrev S500000x1 : Shape := ⟨2, ![500000, 1]⟩
abbrev S21x1000x16 : Shape := ⟨3, ![21, 1000, 16]⟩
abbrev S8x1 : Shape := ⟨2, ![8, 1]⟩
abbrev S8 : Shape := ⟨1, ![8]⟩
abbrev S32x344 : Shape := ⟨2, ![32, 344]⟩
abbrev S32 : Shape := ⟨1, ![32]⟩
abbrev S_ : Shape := ⟨0, ![]⟩
abbrev S501760x21 : Shape := ⟨2, ![501760, 21]⟩
abbrev S501760x1 : Shape := ⟨2, ![501760, 1]⟩
abbrev S32x336 : Shape := ⟨2, ![32, 336]⟩
abbrev S32x21x16 : Shape := ⟨3, ![32, 21, 16]⟩
abbrev S21x16x32 : Shape := ⟨3, ![21, 16, 32]⟩
abbrev S21x1000x32 : Shape := ⟨3, ![21, 1000, 32]⟩
abbrev S21x1024x32 : Shape := ⟨3, ![21, 1024, 32]⟩
abbrev S21x4x256x32 : Shape := ⟨4, ![21, 4, 256, 32]⟩
abbrev S21x256x4x32 : Shape := ⟨4, ![21, 256, 4, 32]⟩
abbrev S21x256x128 : Shape := ⟨3, ![21, 256, 128]⟩
abbrev S32x8 : Shape := ⟨2, ![32, 8]⟩
abbrev S8x32 : Shape := ⟨2, ![8, 32]⟩
abbrev S1x8 : Shape := ⟨2, ![1, 8]⟩
abbrev S1x32 : Shape := ⟨2, ![1, 32]⟩
abbrev S501760x32 : Shape := ⟨2, ![501760, 32]⟩
abbrev S2048x21 : Shape := ⟨2, ![2048, 21]⟩
abbrev S2048x1 : Shape := ⟨2, ![2048, 1]⟩
abbrev S2048x32 : Shape := ⟨2, ![2048, 32]⟩
abbrev S1x256 : Shape := ⟨2, ![1, 256]⟩
abbrev S2048x256 : Shape := ⟨2, ![2048, 256]⟩
abbrev S1x256x128 : Shape := ⟨3, ![1, 256, 128]⟩
abbrev S256x128 : Shape := ⟨2, ![256, 128]⟩
abbrev S2048x128 : Shape := ⟨2, ![2048, 128]⟩
abbrev S2048x8 : Shape := ⟨2, ![2048, 8]⟩
abbrev S500000x32 : Shape := ⟨2, ![500000, 32]⟩

abbrev nBuf : Space → Nat
  | .hbm => 39
  | .vmem => 11
  | .smem => 0
  | _ => 0

abbrev bufTy : (tb : Table) → Fin (tcTables nBuf tb) → BufTy
  | .hbm, ⟨0, _⟩ => ⟨S500000x21, .i32⟩
  | .hbm, ⟨1, _⟩ => ⟨S500000x1, .f32⟩
  | .hbm, ⟨2, _⟩ => ⟨S21x1000x16, .f32⟩
  | .hbm, ⟨3, _⟩ => ⟨S8x1, .f32⟩
  | .hbm, ⟨4, _⟩ => ⟨S8, .f32⟩
  | .hbm, ⟨5, _⟩ => ⟨S32x344, .f32⟩
  | .hbm, ⟨6, _⟩ => ⟨S32, .f32⟩
  | .hbm, ⟨7, _⟩ => ⟨S_, .i32⟩
  | .hbm, ⟨8, _⟩ => ⟨S_, .i32⟩
  | .hbm, ⟨9, _⟩ => ⟨S501760x21, .i32⟩
  | .hbm, ⟨10, _⟩ => ⟨S_, .i32⟩
  | .hbm, ⟨11, _⟩ => ⟨S_, .f32⟩
  | .hbm, ⟨12, _⟩ => ⟨S501760x1, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S501760x21, .i32⟩
  | .hbm, ⟨17, _⟩ => ⟨S501760x21, .i32⟩
  | .hbm, ⟨18, _⟩ => ⟨S_, .i32⟩
  | .hbm, ⟨19, _⟩ => ⟨S501760x21, .i32⟩
  | .hbm, ⟨20, _⟩ => ⟨S501760x21, .i32⟩
  | .hbm, ⟨21, _⟩ => ⟨S32x336, .f32⟩
  | .hbm, ⟨22, _⟩ => ⟨S32x21x16, .f32⟩
  | .hbm, ⟨23, _⟩ => ⟨S21x16x32, .f32⟩
  | .hbm, ⟨24, _⟩ => ⟨S21x1000x32, .f32⟩
  | .hbm, ⟨25, _⟩ => ⟨S_, .i32⟩
  | .hbm, ⟨26, _⟩ => ⟨S_, .f32⟩
  | .hbm, ⟨27, _⟩ => ⟨S21x1024x32, .f32⟩
  | .hbm, ⟨28, _⟩ => ⟨S21x4x256x32, .f32⟩
  | .hbm, ⟨29, _⟩ => ⟨S21x256x4x32, .f32⟩
  | .hbm, ⟨30, _⟩ => ⟨S21x256x128, .f32⟩
  | .hbm, ⟨31, _⟩ => ⟨S21x256x128, .bf16⟩
  | .hbm, ⟨32, _⟩ => ⟨S32x8, .f32⟩
  | .hbm, ⟨33, _⟩ => ⟨S8x32, .f32⟩
  | .hbm, ⟨34, _⟩ => ⟨S8x32, .bf16⟩
  | .hbm, ⟨35, _⟩ => ⟨S1x8, .f32⟩
  | .hbm, ⟨36, _⟩ => ⟨S1x32, .f32⟩
  | .hbm, ⟨37, _⟩ => ⟨S501760x32, .f32⟩
  | .hbm, ⟨38, _⟩ => ⟨S500000x32, .f32⟩
  | .local _ .vmem, ⟨0, _⟩ => ⟨S2048x21, .i32⟩
  | .local _ .vmem, ⟨1, _⟩ => ⟨S2048x21, .i32⟩
  | .local _ .vmem, ⟨2, _⟩ => ⟨S2048x1, .f32⟩
  | .local _ .vmem, ⟨3, _⟩ => ⟨S2048x1, .f32⟩
  | .local _ .vmem, ⟨4, _⟩ => ⟨S21x256x128, .bf16⟩
  | .local _ .vmem, ⟨5, _⟩ => ⟨S8x1, .f32⟩
  | .local _ .vmem, ⟨6, _⟩ => ⟨S1x8, .f32⟩
  | .local _ .vmem, ⟨7, _⟩ => ⟨S8x32, .bf16⟩
  | .local _ .vmem, ⟨8, _⟩ => ⟨S1x32, .f32⟩
  | .local _ .vmem, ⟨9, _⟩ => ⟨S2048x32, .f32⟩
  | .local _ .vmem, ⟨10, _⟩ => ⟨S2048x32, .f32⟩
  | _, _ => ⟨S500000x21, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_c_2 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_call2_v3 : Ref sig .tc := ⟨.hbm, 18, rfl⟩
abbrev main_call2_v4 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_call3_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x21 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S21x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S500000x21_S501760x21_017600_000 : S500000x21.Pads (![0, 0] : Fin 2 → Nat) ![1760, 0] ![0, 0] S501760x21
  h_S_ : 0 < S_.numel
  pads_S500000x1_S501760x1_017600_000 : S500000x1.Pads (![0, 0] : Fin 2 → Nat) ![1760, 0] ![0, 0] S501760x1
  bcast_S_S501760x21 : S_.BroadcastsInDim S501760x21 (![] : Fin 0 → Fin S501760x21.rank)
  slices_S32x344_S32x336_0_0 : S32x344.Slices ![0, 0] S32x336
  shapeCasts_S32x336_S32x21x16 : S32x336.ShapeCasts S32x21x16
  transposes_S32x21x16_S21x16x32_1_2_0 : S32x21x16.Transposes [1, 2, 0] S21x16x32
  pads_S21x1000x32_S21x1024x32_000_0240_000 : S21x1000x32.Pads (![0, 0, 0] : Fin 3 → Nat) ![0, 24, 0] ![0, 0, 0] S21x1024x32
  shapeCasts_S21x1024x32_S21x4x256x32 : S21x1024x32.ShapeCasts S21x4x256x32
  transposes_S21x4x256x32_S21x256x4x32_0_2_1_3 : S21x4x256x32.Transposes [0, 2, 1, 3] S21x256x4x32
  shapeCasts_S21x256x4x32_S21x256x128 : S21x256x4x32.ShapeCasts S21x256x128
  bitsLt_bf16_f32 : FTy.bits .bf16 < FTy.bits .f32
  slices_S32x344_S32x8_0_336 : S32x344.Slices ![0, 336] S32x8
  transposes_S32x8_S8x32_1_0 : S32x8.Transposes [1, 0] S8x32
  shapeCasts_S8_S1x8 : S8.ShapeCasts S1x8
  shapeCasts_S32_S1x32 : S32.ShapeCasts S1x32
  iota_S1x256_d1_w32 : S1x256.Iotas .tc 32 [1]
  inb_S2048x21_S2048x1_0_0 : ∀ a, (![0, 0] : Fin 2 → Nat) a + S2048x1.size a ≤ S2048x21.size a
  h_S2048x1 : 0 < S2048x1.numel
  shapeCasts_S2048x1_S2048x1 : S2048x1.ShapeCasts S2048x1
  broadcasts_S2048x1_S2048x256 : S2048x1.Broadcasts S2048x256
  broadcasts_S1x256_S2048x256 : S1x256.Broadcasts S2048x256
  natLt_1_32 : 1 < 32
  inb_S21x256x128_S1x256x128_0_0_0 : ∀ a, (![0, 0, 0] : Fin 3 → Nat) a + S1x256x128.size a ≤ S21x256x128.size a
  h_S1x256x128 : 0 < S1x256x128.numel
  shapeCasts_S1x256x128_S256x128 : S1x256x128.ShapeCasts S256x128
  slices_S2048x128_o0_0_S2048x32 : S2048x128.Slices ![0, 0] S2048x32
  broadcasts_S2048x1_S2048x32 : S2048x1.Broadcasts S2048x32
  slices_S2048x128_o0_32_S2048x32 : S2048x128.Slices ![0, 32] S2048x32
  slices_S2048x128_o0_64_S2048x32 : S2048x128.Slices ![0, 64] S2048x32
  slices_S2048x128_o0_96_S2048x32 : S2048x128.Slices ![0, 96] S2048x32
  inb_S2048x21_S2048x1_0_1 : ∀ a, (![0, 1] : Fin 2 → Nat) a + S2048x1.size a ≤ S2048x21.size a
  inb_S21x256x128_S1x256x128_1_0_0 : ∀ a, (![1, 0, 0] : Fin 3 → Nat) a + S1x256x128.size a ≤ S21x256x128.size a
  inb_S2048x21_S2048x1_0_2 : ∀ a, (![0, 2] : Fin 2 → Nat) a + S2048x1.size a ≤ S2048x21.size a
  inb_S21x256x128_S1x256x128_2_0_0 : ∀ a, (![2, 0, 0] : Fin 3 → Nat) a + S1x256x128.size a ≤ S21x256x128.size a
  inb_S2048x21_S2048x1_0_3 : ∀ a, (![0, 3] : Fin 2 → Nat) a + S2048x1.size a ≤ S2048x21.size a
  inb_S21x256x128_S1x256x128_3_0_0 : ∀ a, (![3, 0, 0] : Fin 3 → Nat) a + S1x256x128.size a ≤ S21x256x128.size a
  inb_S2048x21_S2048x1_0_4 : ∀ a, (![0, 4] : Fin 2 → Nat) a + S2048x1.size a ≤ S2048x21.size a
  inb_S21x256x128_S1x256x128_4_0_0 : ∀ a, (![4, 0, 0] : Fin 3 → Nat) a + S1x256x128.size a ≤ S21x256x128.size a
  inb_S2048x21_S2048x1_0_5 : ∀ a, (![0, 5] : Fin 2 → Nat) a + S2048x1.size a ≤ S2048x21.size a
  inb_S21x256x128_S1x256x128_5_0_0 : ∀ a, (![5, 0, 0] : Fin 3 → Nat) a + S1x256x128.size a ≤ S21x256x128.size a
  inb_S2048x21_S2048x1_0_6 : ∀ a, (![0, 6] : Fin 2 → Nat) a + S2048x1.size a ≤ S2048x21.size a
  inb_S21x256x128_S1x256x128_6_0_0 : ∀ a, (![6, 0, 0] : Fin 3 → Nat) a + S1x256x128.size a ≤ S21x256x128.size a
  inb_S2048x21_S2048x1_0_7 : ∀ a, (![0, 7] : Fin 2 → Nat) a + S2048x1.size a ≤ S2048x21.size a
  inb_S21x256x128_S1x256x128_7_0_0 : ∀ a, (![7, 0, 0] : Fin 3 → Nat) a + S1x256x128.size a ≤ S21x256x128.size a
  inb_S2048x21_S2048x1_0_8 : ∀ a, (![0, 8] : Fin 2 → Nat) a + S2048x1.size a ≤ S2048x21.size a
  inb_S21x256x128_S1x256x128_8_0_0 : ∀ a, (![8, 0, 0] : Fin 3 → Nat) a + S1x256x128.size a ≤ S21x256x128.size a
  inb_S2048x21_S2048x1_0_9 : ∀ a, (![0, 9] : Fin 2 → Nat) a + S2048x1.size a ≤ S2048x21.size a
  inb_S21x256x128_S1x256x128_9_0_0 : ∀ a, (![9, 0, 0] : Fin 3 → Nat) a + S1x256x128.size a ≤ S21x256x128.size a
  inb_S2048x21_S2048x1_0_10 : ∀ a, (![0, 10] : Fin 2 → Nat) a + S2048x1.size a ≤ S2048x21.size a
  inb_S21x256x128_S1x256x128_10_0_0 : ∀ a, (![10, 0, 0] : Fin 3 → Nat) a + S1x256x128.size a ≤ S21x256x128.size a
  inb_S2048x21_S2048x1_0_11 : ∀ a, (![0, 11] : Fin 2 → Nat) a + S2048x1.size a ≤ S2048x21.size a
  inb_S21x256x128_S1x256x128_11_0_0 : ∀ a, (![11, 0, 0] : Fin 3 → Nat) a + S1x256x128.size a ≤ S21x256x128.size a
  inb_S2048x21_S2048x1_0_12 : ∀ a, (![0, 12] : Fin 2 → Nat) a + S2048x1.size a ≤ S2048x21.size a
  inb_S21x256x128_S1x256x128_12_0_0 : ∀ a, (![12, 0, 0] : Fin 3 → Nat) a + S1x256x128.size a ≤ S21x256x128.size a
  inb_S2048x21_S2048x1_0_13 : ∀ a, (![0, 13] : Fin 2 → Nat) a + S2048x1.size a ≤ S2048x21.size a
  inb_S21x256x128_S1x256x128_13_0_0 : ∀ a, (![13, 0, 0] : Fin 3 → Nat) a + S1x256x128.size a ≤ S21x256x128.size a
  inb_S2048x21_S2048x1_0_14 : ∀ a, (![0, 14] : Fin 2 → Nat) a + S2048x1.size a ≤ S2048x21.size a
  inb_S21x256x128_S1x256x128_14_0_0 : ∀ a, (![14, 0, 0] : Fin 3 → Nat) a + S1x256x128.size a ≤ S21x256x128.size a
  inb_S2048x21_S2048x1_0_15 : ∀ a, (![0, 15] : Fin 2 → Nat) a + S2048x1.size a ≤ S2048x21.size a
  inb_S21x256x128_S1x256x128_15_0_0 : ∀ a, (![15, 0, 0] : Fin 3 → Nat) a + S1x256x128.size a ≤ S21x256x128.size a
  inb_S2048x21_S2048x1_0_16 : ∀ a, (![0, 16] : Fin 2 → Nat) a + S2048x1.size a ≤ S2048x21.size a
  inb_S21x256x128_S1x256x128_16_0_0 : ∀ a, (![16, 0, 0] : Fin 3 → Nat) a + S1x256x128.size a ≤ S21x256x128.size a
  inb_S2048x21_S2048x1_0_17 : ∀ a, (![0, 17] : Fin 2 → Nat) a + S2048x1.size a ≤ S2048x21.size a
  inb_S21x256x128_S1x256x128_17_0_0 : ∀ a, (![17, 0, 0] : Fin 3 → Nat) a + S1x256x128.size a ≤ S21x256x128.size a
  inb_S2048x21_S2048x1_0_18 : ∀ a, (![0, 18] : Fin 2 → Nat) a + S2048x1.size a ≤ S2048x21.size a
  inb_S21x256x128_S1x256x128_18_0_0 : ∀ a, (![18, 0, 0] : Fin 3 → Nat) a + S1x256x128.size a ≤ S21x256x128.size a
  inb_S2048x21_S2048x1_0_19 : ∀ a, (![0, 19] : Fin 2 → Nat) a + S2048x1.size a ≤ S2048x21.size a
  inb_S21x256x128_S1x256x128_19_0_0 : ∀ a, (![19, 0, 0] : Fin 3 → Nat) a + S1x256x128.size a ≤ S21x256x128.size a
  inb_S2048x21_S2048x1_0_20 : ∀ a, (![0, 20] : Fin 2 → Nat) a + S2048x1.size a ≤ S2048x21.size a
  inb_S21x256x128_S1x256x128_20_0_0 : ∀ a, (![20, 0, 0] : Fin 3 → Nat) a + S1x256x128.size a ≤ S21x256x128.size a
  inb_S8x1_S8x1_0_0 : ∀ a, (![0, 0] : Fin 2 → Nat) a + S8x1.size a ≤ S8x1.size a
  h_S8x1 : 0 < S8x1.numel
  shapeCasts_S8x1_S8 : S8x1.ShapeCasts S8
  inb_S1x8_S1x8_0_0 : ∀ a, (![0, 0] : Fin 2 → Nat) a + S1x8.size a ≤ S1x8.size a
  h_S1x8 : 0 < S1x8.numel
  shapeCasts_S1x8_S8 : S1x8.ShapeCasts S8
  inb_S2048x1_S2048x1_0_0 : ∀ a, (![0, 0] : Fin 2 → Nat) a + S2048x1.size a ≤ S2048x1.size a
  broadcasts_S2048x1_S2048x8 : S2048x1.Broadcasts S2048x8
  broadcasts_S1x8_S2048x8 : S1x8.Broadcasts S2048x8
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S1x32_S1x32_0_0 : ∀ a, (![0, 0] : Fin 2 → Nat) a + S1x32.size a ≤ S1x32.size a
  h_S1x32 : 0 < S1x32.numel
  shapeCasts_S1x32_S32 : S1x32.ShapeCasts S32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  slices_S501760x32_S500000x32_0_0 : S501760x32.Slices ![0, 0] S500000x32
  dot_S21x1000x16_S21x16x32_S21x1000x32_2_1_1_2_0_0_wf : DotDims.WF S21x1000x16 S21x16x32 S21x1000x32 [2] [1] [1] [2] [0] [0]
  dot_S2048x256_S256x128_S2048x128_1_0_0_1_n_n_wf : DotDims.WF S2048x256 S256x128 S2048x128 [1] [0] [0] [1] [] []
  dot_S2048x8_S8x32_S2048x32_1_0_0_1_n_n_wf : DotDims.WF S2048x8 S8x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x21.size a ≤ S501760x21.size a
  hwx0_0 : ∀ i : grid0.Coords, EltTy.bits .i32 = 32 ∨ (Rect.block (s := S501760x21) S2048x21.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S501760x1.size a
  hwx0_1 : ∀ i : grid0.Coords, EltTy.bits .f32 = 32 ∨ (Rect.block (s := S501760x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S21x256x128.size a ≤ S21x256x128.size a
  hwx0_2 : ∀ i : grid0.Coords, EltTy.bits .bf16 = 32 ∨ (Rect.block (s := S21x256x128) S21x256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x32.size a ≤ S8x32.size a
  hwx0_5 : ∀ i : grid0.Coords, EltTy.bits .bf16 = 32 ∨ (Rect.block (s := S8x32) S8x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x32.size a ≤ S501760x32.size a
  hwx0_7 : ∀ i : grid0.Coords, EltTy.bits .f32 = 32 ∨ (Rect.block (s := S501760x32) S2048x32.size (cc0_transform_7 i) (hinb0_7 i)).WholeWords (EltTy.packing .f32)

variable [Facts₀]

def dot_S21x1000x16_S21x16x32_S21x1000x32_2_1_1_2_0_0 : DotDims S21x1000x16 S21x16x32 S21x1000x32 where
  lhsContracting := [2]
  rhsContracting := [1]
  lhsNonContracting := [1]
  rhsNonContracting := [2]
  lhsBatch := [0]
  rhsBatch := [0]
  wf := dot_S21x1000x16_S21x16x32_S21x1000x32_2_1_1_2_0_0_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x8_S8x32_S2048x32_1_0_0_1_n_n : DotDims S2048x8 S8x32 S2048x32 where
  lhsContracting := [1]
  rhsContracting := [0]
  lhsNonContracting := [0]
  rhsNonContracting := [1]
  lhsBatch := []
  rhsBatch := []
  wf := dot_S2048x8_S8x32_S2048x32_1_0_0_1_n_n_wf

abbrev win0_0 : Pipeline.Window sig grid0 :=
  Pipeline.Window.ofSpec (Memref.whole main_v2) S2048x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S21x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S2048x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x21 : Shape := ⟨2, ![500000, 21]⟩
abbrev S500000x1 : Shape := ⟨2, ![500000, 1]⟩
abbrev S21x1000x16 : Shape := ⟨3, ![21, 1000, 16]⟩
abbrev S8x1 : Shape := ⟨2, ![8, 1]⟩
abbrev S8 : Shape := ⟨1, ![8]⟩
abbrev S32x344 : Shape := ⟨2, ![32, 344]⟩
abbrev S32 : Shape := ⟨1, ![32]⟩
abbrev S21 : Shape := ⟨1, ![21]⟩
abbrev S1x21 : Shape := ⟨2, ![1, 21]⟩
abbrev S_ : Shape := ⟨0, ![]⟩
abbrev S500000x21x1 : Shape := ⟨3, ![500000, 21, 1]⟩
abbrev S500000x21x2 : Shape := ⟨3, ![500000, 21, 2]⟩
abbrev S500000x21x16 : Shape := ⟨3, ![500000, 21, 16]⟩
abbrev S500000x336 : Shape := ⟨2, ![500000, 336]⟩
abbrev S1x8 : Shape := ⟨2, ![1, 8]⟩
abbrev S500000x8 : Shape := ⟨2, ![500000, 8]⟩
abbrev S500000x344 : Shape := ⟨2, ![500000, 344]⟩
abbrev S344x32 : Shape := ⟨2, ![344, 32]⟩
abbrev S500000x32 : Shape := ⟨2, ![500000, 32]⟩
abbrev S1x32 : Shape := ⟨2, ![1, 32]⟩

abbrev nBuf : Space → Nat
  | .hbm => 54
  | .vmem => 0
  | .smem => 0
  | _ => 0

abbrev bufTy : (tb : Table) → Fin (tcTables nBuf tb) → BufTy
  | .hbm, ⟨0, _⟩ => ⟨S500000x21, .i32⟩
  | .hbm, ⟨1, _⟩ => ⟨S500000x1, .f32⟩
  | .hbm, ⟨2, _⟩ => ⟨S21x1000x16, .f32⟩
  | .hbm, ⟨3, _⟩ => ⟨S8x1, .f32⟩
  | .hbm, ⟨4, _⟩ => ⟨S8, .f32⟩
  | .hbm, ⟨5, _⟩ => ⟨S32x344, .f32⟩
  | .hbm, ⟨6, _⟩ => ⟨S32, .f32⟩
  | .hbm, ⟨7, _⟩ => ⟨S21, .i32⟩
  | .hbm, ⟨8, _⟩ => ⟨S1x21, .i32⟩
  | .hbm, ⟨9, _⟩ => ⟨S_, .i32⟩
  | .hbm, ⟨10, _⟩ => ⟨S1x21, .i32⟩
  | .hbm, ⟨11, _⟩ => ⟨S1x21, .i1⟩
  | .hbm, ⟨12, _⟩ => ⟨S_, .i32⟩
  | .hbm, ⟨13, _⟩ => ⟨S1x21, .i32⟩
  | .hbm, ⟨14, _⟩ => ⟨S1x21, .i32⟩
  | .hbm, ⟨15, _⟩ => ⟨S1x21, .i32⟩
  | .hbm, ⟨16, _⟩ => ⟨S_, .i32⟩
  | .hbm, ⟨17, _⟩ => ⟨S500000x21, .i32⟩
  | .hbm, ⟨18, _⟩ => ⟨S500000x21, .i1⟩
  | .hbm, ⟨19, _⟩ => ⟨S_, .i32⟩
  | .hbm, ⟨20, _⟩ => ⟨S500000x21, .i32⟩
  | .hbm, ⟨21, _⟩ => ⟨S500000x21, .i32⟩
  | .hbm, ⟨22, _⟩ => ⟨S500000x21, .i32⟩
  | .hbm, ⟨23, _⟩ => ⟨S500000x21, .i32⟩
  | .hbm, ⟨24, _⟩ => ⟨S500000x21x1, .i32⟩
  | .hbm, ⟨25, _⟩ => ⟨S500000x21x1, .i32⟩
  | .hbm, ⟨26, _⟩ => ⟨S500000x21x2, .i32⟩
  | .hbm, ⟨27, _⟩ => ⟨S500000x21x16, .f32⟩
  | .hbm, ⟨28, _⟩ => ⟨S500000x336, .f32⟩
  | .hbm, ⟨29, _⟩ => ⟨S1x8, .f32⟩
  | .hbm, ⟨30, _⟩ => ⟨S500000x8, .f32⟩
  | .hbm, ⟨31, _⟩ => ⟨S1x8, .f32⟩
  | .hbm, ⟨32, _⟩ => ⟨S500000x8, .f32⟩
  | .hbm, ⟨33, _⟩ => ⟨S500000x8, .f32⟩
  | .hbm, ⟨34, _⟩ => ⟨S_, .f32⟩
  | .hbm, ⟨35, _⟩ => ⟨S500000x8, .f32⟩
  | .hbm, ⟨36, _⟩ => ⟨S500000x8, .i1⟩
  | .hbm, ⟨37, _⟩ => ⟨S_, .f32⟩
  | .hbm, ⟨38, _⟩ => ⟨S500000x8, .f32⟩
  | .hbm, ⟨39, _⟩ => ⟨S500000x8, .f32⟩
  | .hbm, ⟨40, _⟩ => ⟨S500000x8, .f32⟩
  | .hbm, ⟨41, _⟩ => ⟨S500000x344, .f32⟩
  | .hbm, ⟨42, _⟩ => ⟨S344x32, .f32⟩
  | .hbm, ⟨43, _⟩ => ⟨S500000x32, .f32⟩
  | .hbm, ⟨44, _⟩ => ⟨S1x32, .f32⟩
  | .hbm, ⟨45, _⟩ => ⟨S500000x32, .f32⟩
  | .hbm, ⟨46, _⟩ => ⟨S500000x32, .f32⟩
  | .hbm, ⟨47, _⟩ => ⟨S_, .f32⟩
  | .hbm, ⟨48, _⟩ => ⟨S500000x32, .f32⟩
  | .hbm, ⟨49, _⟩ => ⟨S500000x32, .i1⟩
  | .hbm, ⟨50, _⟩ => ⟨S_, .f32⟩
  | .hbm, ⟨51, _⟩ => ⟨S500000x32, .f32⟩
  | .hbm, ⟨52, _⟩ => ⟨S500000x32, .f32⟩
  | .hbm, ⟨53, _⟩ => ⟨S500000x32, .f32⟩
  | _, _ => ⟨S500000x21, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S21_S1x21_1 : S21.BroadcastsInDim S1x21 (![1] : Fin 1 → Fin S1x21.rank)
  bcast_S_S1x21 : S_.BroadcastsInDim S1x21 (![] : Fin 0 → Fin S1x21.rank)
  bcast_S_S500000x21 : S_.BroadcastsInDim S500000x21 (![] : Fin 0 → Fin S500000x21.rank)
  bcast_S1x21_S500000x21_0_1 : S1x21.BroadcastsInDim S500000x21 (![0, 1] : Fin 2 → Fin S500000x21.rank)
  bcast_S500000x21_S500000x21x1_0_1 : S500000x21.BroadcastsInDim S500000x21x1 (![0, 1] : Fin 2 → Fin S500000x21x1.rank)
  concatenates_S500000x21x1_S500000x21x1_S500000x21x2_d2 : Shape.Concatenates [S500000x21x1, S500000x21x1] S500000x21x2 2
  shapeCasts_S500000x21x16_S500000x336 : S500000x21x16.ShapeCasts S500000x336
  transposes_S8x1_S1x8_1_0 : S8x1.Transposes [1, 0] S1x8
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  bcast_S_S500000x8 : S_.BroadcastsInDim S500000x8 (![] : Fin 0 → Fin S500000x8.rank)
  concatenates_S500000x336_S500000x8_S500000x344_d1 : Shape.Concatenates [S500000x336, S500000x8] S500000x344 1
  transposes_S32x344_S344x32_1_0 : S32x344.Transposes [1, 0] S344x32
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  gather_S21x1000x16_S500000x21x2_S500000x21x16_2_01_n_n_01_2_1116_wf : GatherDims.WF S21x1000x16 S500000x21x2 S500000x21x16 [2] [0, 1] [] [0, 1] [] 2 ![1, 1, 16]
  dot_S500000x1_S1x8_S500000x8_1_0_0_1_n_n_wf : DotDims.WF S500000x1 S1x8 S500000x8 [1] [0] [0] [1] [] []
  dot_S500000x344_S344x32_S500000x32_1_0_0_1_n_n_wf : DotDims.WF S500000x344 S344x32 S500000x32 [1] [0] [0] [1] [] []

variable [Facts₀]

def gather_S21x1000x16_S500000x21x2_S500000x21x16_2_01_n_n_01_2_1116 : GatherDims S21x1000x16 S500000x21x2 S500000x21x16 where
  offsetDims := [2]
  collapsedSliceDims := [0, 1]
  operandBatchingDims := []
  startIndicesBatchingDims := []
  startIndexMap := [0, 1]
  indexVectorDim := 2
  sliceSizes := ![1, 1, 16]
  wf := gather_S21x1000x16_S500000x21x2_S500000x21x16_2_01_n_n_01_2_1116_wf
def dot_S500000x1_S1x8_S500000x8_1_0_0_1_n_n : DotDims S500000x1 S1x8 S500000x8 where
  lhsContracting := [1]
  rhsContracting := [0]
  lhsNonContracting := [0]
  rhsNonContracting := [1]
  lhsBatch := []
  rhsBatch := []
  wf := dot_S500000x1_S1x8_S500000x8_1_0_0_1_n_n_wf
def dot_S500000x344_S344x32_S500000x32_1_0_0_1_n_n : DotDims S500000x344 S344x32 S500000x32 where
  lhsContracting := [1]
  rhsContracting := [0]
  lhsNonContracting := [0]
  rhsNonContracting := [1]
  lhsBatch := []
  rhsBatch := []
  wf := dot_S500000x344_S344x32_S500000x32_1_0_0_1_n_n_wf

class Facts : Prop extends Facts₀ where

variable [Facts]
-- ==== Proof.KStep.lean ====
/-
  The kernel's body, restated as 21 applications of ONE step.

  For table t the body loads column t of the block of category ids (2048 words) and slab t of the repacked tables
  (256 × 128), and adds to a running 2048 × 32 accumulator, for hi = 0, 1, 2, 3, the product of the 0/1 mask
  "id / 256 = hi" with lanes 32·hi … 32·hi + 31 of (one-hot of id mod 256) · slab. `tstep` is that update as the
  body's own operations; the body's final value is the fold of `tstep` over the 21 (column, slab) pairs starting from
  zero, followed by the continuous branch, the bias and the leaky ReLU (the body's last payload). The body prints
  these 21 updates one after the other; the equation with the fold is by unfolding.
-/
import proofs.«400103_j41858751266986_3_alg».proof.Proof.Gen.KernelIdeal.Frame

set_option maxRecDepth 65536

noncomputable section

namespace Cert.KernelIdeal.Body

open Idealize.ShloMosaic Idealize.SL.Sem Cert.KernelIdeal Cert.KernelIdeal.Gen

variable {F : FTy → Type} [FloatOps F]

/-- The 0/1 mask "the id's high part (id shifted right by 8) equals h", as a float, one value per row, broadcast over the 32 output lanes. -/
def hiMask (x : Vec F S2048x1 .i32) (h : BitVec 32) : FVec F S2048x32 .f32 :=
  broadcastTo S2048x32 (sitofp .f32 (extui 32 (cmpi .eq (shrsi (shapeCast S2048x1 x shapeCasts_S2048x1_S2048x1) (broadcast S2048x1 8#32)) (broadcast S2048x1 h)) natLt_1_32)) broadcasts_S2048x1_S2048x32

/-- (one-hot of the id's low 8 bits, 2048 × 256) times the slab (256 × 128), into a zero accumulator. -/
def oneHotMat (x : Vec F S2048x1 .i32) (M : Vec F S1x256x128 .bf16) : FVec F S2048x128 .f32 :=
  matmul dot_S2048x256_S256x128_S2048x128_1_0_0_1_n_n none
    (truncf .bf16 (sitofp .f32 (extui 32 (cmpi .eq (broadcastTo S2048x256 (andi (shapeCast S2048x1 x shapeCasts_S2048x1_S2048x1) (broadcast S2048x1 255#32)) broadcasts_S2048x1_S2048x256) (broadcastTo S2048x256 (iota .tc S1x256 32 [1] iota_S1x256_d1_w32) broadcasts_S1x256_S2048x256)) natLt_1_32)) bitsLt_bf16_f32)
    (shapeCast S256x128 M shapeCasts_S1x256x128_S256x128) (constant S2048x128 .f32 0x00000000#32)

/-- One table's update of the accumulator: the four masked 32-lane slices added in order. -/
def tstep (acc : FVec F S2048x32 .f32) (x : Vec F S2048x1 .i32) (M : Vec F S1x256x128 .bf16) : FVec F S2048x32 .f32 :=
  addf (addf (addf (addf acc (mulf (hiMask x 0#32) (extractStridedSlice S2048x32 ![0, 0] (oneHotMat x M) slices_S2048x128_o0_0_S2048x32)))
     (mulf (hiMask x 1#32) (extractStridedSlice S2048x32 ![0, 32] (oneHotMat x M) slices_S2048x128_o0_32_S2048x32)))
     (mulf (hiMask x 2#32) (extractStridedSlice S2048x32 ![0, 64] (oneHotMat x M) slices_S2048x128_o0_64_S2048x32)))
     (mulf (hiMask x 3#32) (extractStridedSlice S2048x32 ![0, 96] (oneHotMat x M) slices_S2048x128_o0_96_S2048x32))

/-- The accumulator before the first table: zero. -/
def zacc : FVec F S2048x32 .f32 := broadcast S2048x32 (Scalar.ofBits .f32 0x00000000#32)

/-- The 21 (column of ids, slab of the repacked tables) pairs the body loads, in order. -/
def pairs (x0 : Vec F S2048x21 .i32) (x2 : Vec F S21x256x128 .bf16) : List (Vec F S2048x1 .i32 × Vec F S1x256x128 .bf16) :=
  [ (View.ld x0 r0_0, View.ld x2 r0_1),
    (View.ld x0 r0_2, View.ld x2 r0_3),
    (View.ld x0 r0_4, View.ld x2 r0_5),
    (View.ld x0 r0_6, View.ld x2 r0_7),
    (View.ld x0 r0_8, View.ld x2 r0_9),
    (View.ld x0 r0_10, View.ld x2 r0_11),
    (View.ld x0 r0_12, View.ld x2 r0_13),
    (View.ld x0 r0_14, View.ld x2 r0_15),
    (View.ld x0 r0_16, View.ld x2 r0_17),
    (View.ld x0 r0_18, View.ld x2 r0_19),
    (View.ld x0 r0_20, View.ld x2 r0_21),
    (View.ld x0 r0_22, View.ld x2 r0_23),
    (View.ld x0 r0_24, View.ld x2 r0_25),
    (View.ld x0 r0_26, View.ld x2 r0_27),
    (View.ld x0 r0_28, View.ld x2 r0_29),
    (View.ld x0 r0_30, View.ld x2 r0_31),
    (View.ld x0 r0_32, View.ld x2 r0_33),
    (View.ld x0 r0_34, View.ld x2 r0_35),
    (View.ld x0 r0_36, View.ld x2 r0_37),
    (View.ld x0 r0_38, View.ld x2 r0_39),
    (View.ld x0 r0_40, View.ld x2 r0_41) ]

/-- The accumulator after the 21 tables. -/
def acc21 (x0 : Vec F S2048x21 .i32) (x2 : Vec F S21x256x128 .bf16) : FVec F S2048x32 .f32 :=
  (pairs x0 x2).foldl (fun a p => tstep a p.1 p.2) zacc

/-- What the body leaves in the output window's buffer: the last payload (continuous branch, bias, leaky ReLU) over the
    accumulator after the 21 tables. -/
theorem out0_7_eq (x0 : Vec F S2048x21 .i32) (x1 : Vec F S2048x1 .f32) (x2 : Vec F S21x256x128 .bf16) (x3 : Vec F S8x1 .f32)
    (x4 : Vec F S1x8 .f32) (x5 : Vec F S8x32 .bf16) (x6 : Vec F S1x32 .f32) :
    out0_7 x0 x1 x2 x3 x4 x5 x6
      = View.canon [⟨r0_47, k0_pay1 (acc21 x0 x2) (k0_pay70 (View.ld x3 r0_42) (View.ld x1 r0_44)) (k0_pay71 (View.ld x4 r0_43)) (View.ld x5 r0_45) (View.ld x6 r0_46)⟩] := rfl

end Cert.KernelIdeal.Body

end
-- ==== Proof.Spec.lean ====
/-
  The function both programs compute, index by index, on the extended reals.

  Row R of the batch carries 21 category ids and one continuous feature. Table t contributes the row
  tables[t, id(R,t), :] (16 numbers); the continuous feature x goes through an affine map to 8 numbers and a leaky
  ReLU. The 21·16 + 8 = 344 numbers are contracted against row o of W, the bias b[o] is added, and a second leaky
  ReLU gives the result:

    out[R, o] = lrelu( Σ_t Σ_e tables[t, id(R,t), e] · W[o, 16t + e]
                       + Σ_j lrelu(x[R] · W_c[j] + b_c[j]) · W[o, 336 + j]  +  b[o] ).

  The kernel reaches the same number another way: W's first 336 columns are multiplied into the tables beforehand
  (one 32-wide row per category), the 1000 rows of each product are laid out as 256 rows of 4·32 lanes (row lo,
  lanes 32·hi … 32·hi+31 holding category 256·hi + lo), and an id is split as id = 256·hi + lo. `blockFn` is that
  computation over the arrays the kernel's windows see; `pick` is the lane it selects.
-/
import Idealize.ShloMosaic.PureOps.Ideal
import Idealize.ShloMosaic.PureOps.Ideal.Laws
import Idealize.ShloMosaic.Lib.ValueIdx

noncomputable section

open scoped BigOperators

namespace Cert.EmbedMlp

open Idealize.ShloMosaic Idealize.ShloMosaic.ValueIdx

/-- The leaky ReLU as both programs spell it: `v` where `v ≥ 0`, else the f32 nearest 1/100 times `v`. -/
def lrelu (v : EReal) : EReal :=
  Scalar.select (Ideal.cmp .oge v (Ideal.ofBits .f32 0x00000000#32)) v (Ideal.ofBits .f32 0x3C23D70A#32 * v)

/-- The specification: entry (R, o) of the result, from the category ids `id` (each below 1000) and the float arrays. -/
def G (id : Fin 500000 → Fin 21 → Fin 1000)
    (xc : (⟨2, ![500000, 1]⟩ : Shape).Idx → EReal) (T : (⟨3, ![21, 1000, 16]⟩ : Shape).Idx → EReal)
    (Wc : (⟨2, ![8, 1]⟩ : Shape).Idx → EReal) (bc : (⟨1, ![8]⟩ : Shape).Idx → EReal)
    (W : (⟨2, ![32, 344]⟩ : Shape).Idx → EReal) (b : (⟨1, ![32]⟩ : Shape).Idx → EReal) :
    (⟨2, ![500000, 32]⟩ : Shape).Idx → EReal := fun i =>
  lrelu ((∑ t : Fin 21, ∑ e : Fin 16, T (ix3 t (id (i 0) t) e) * W (ix2 (i 1) ⟨16 * t.val + e.val, by omega⟩)
      + ∑ j : Fin 8, lrelu (xc (ix2 (i 0) 0) * Wc (ix2 j 0) + bc (ix1 j)) * W (ix2 (i 1) ⟨336 + j.val, by omega⟩))
    + b (ix1 (i 1)))

/-- The lane of the repacked table `t` that a category word selects: row `w mod 256`, lane `32·(w / 256) + o`. -/
def pick (w : BitVec 32) (M : (⟨3, ![21, 256, 128]⟩ : Shape).Idx → EReal) (t : Fin 21) (o : Fin 32) : EReal :=
  M (ix3 t ⟨w.toNat % 256, Nat.mod_lt _ (by norm_num)⟩ ⟨32 * (w.toNat / 256 % 4) + o.val, by omega⟩)

/-- What the kernel's body computes, over the arrays its windows see: the padded ids `X`, the padded feature `xc`,
    the repacked tables `M`, `W_c`, the biases as one-row matrices, and W's last 8 columns transposed. -/
def blockFn (X : (⟨2, ![501760, 21]⟩ : Shape).Idx → BitVec 32) (xc : (⟨2, ![501760, 1]⟩ : Shape).Idx → EReal)
    (M : (⟨3, ![21, 256, 128]⟩ : Shape).Idx → EReal) (Wc : (⟨2, ![8, 1]⟩ : Shape).Idx → EReal)
    (bc : (⟨2, ![1, 8]⟩ : Shape).Idx → EReal) (Wt : (⟨2, ![8, 32]⟩ : Shape).Idx → EReal)
    (b : (⟨2, ![1, 32]⟩ : Shape).Idx → EReal) : (⟨2, ![501760, 32]⟩ : Shape).Idx → EReal := fun i =>
  lrelu ((∑ t : Fin 21, pick (X (ix2 (i 0) t)) M t (i 1)
      + ∑ j : Fin 8, lrelu (xc (ix2 (i 0) 0) * Wc (ix2 j 0) + bc (ix2 0 j)) * Wt (ix2 j (i 1)))
    + b (ix2 0 (i 1)))

end Cert.EmbedMlp

end
-- ==== Proof.KStepValue.lean ====
/-
  The kernel body's value at one entry of its output block.

  With every id word of row r below 1024, exactly one of the four hi-masks of a table is 1 and the one-hot row has a
  single 1, so a table's update adds ONE entry of its slab: row (id mod 256), lane 32·(id / 256) + o. The 21 updates
  add up to the sum over the tables; the continuous branch is a product with an 8 × 32 matrix; then bias and leaky ReLU.
-/
import proofs.«400103_j41858751266986_3_alg».proof.Proof.KStep
import proofs.«400103_j41858751266986_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Idealize.SL.Sem Cert.KernelIdeal Cert.KernelIdeal.Gen Cert.EmbedMlp

/-! ## Layout operations of the body at explicit coordinates -/

section Layout
variable {α : Type}

/-- A column broadcast along the lanes reads the column's entry of the row. -/
theorem bc_col {n m : Nat} (hn : n ≠ 1) (y : (⟨2, ![n, 1]⟩ : Shape).Idx → α)
    (h : Shape.Broadcasts ⟨2, ![n, 1]⟩ ⟨2, ![n, m]⟩) (r : Fin n) (j : Fin m) :
    broadcastTo ⟨2, ![n, m]⟩ y h (ix2 r j) = y (ix2 r 0) :=
  broadcastTo_apply y h (ix2 r j) (ix2 r 0) (fun a => match a with
    | ⟨0, _⟩ => by show r.val = if n = 1 then 0 else r.val; rw [if_neg hn]
    | ⟨1, _⟩ => by show 0 = if (1 : Nat) = 1 then 0 else j.val; rw [if_pos rfl])

/-- A row broadcast along the rows reads the row's entry of the lane. -/
theorem bc_row {n m : Nat} (hm : m ≠ 1) (y : (⟨2, ![1, m]⟩ : Shape).Idx → α)
    (h : Shape.Broadcasts ⟨2, ![1, m]⟩ ⟨2, ![n, m]⟩) (r : Fin n) (j : Fin m) :
    broadcastTo ⟨2, ![n, m]⟩ y h (ix2 r j) = y (ix2 0 j) :=
  broadcastTo_apply y h (ix2 r j) (ix2 0 j) (fun a => match a with
    | ⟨0, _⟩ => by show 0 = if (1 : Nat) = 1 then 0 else r.val; rw [if_pos rfl]
    | ⟨1, _⟩ => by show j.val = if m = 1 then 0 else j.val; rw [if_neg hm])

end Layout

/-- The continuous branch's product: row r's feature times W_c's entry j. -/
theorem pay70_apply (x3 : Vec Ideal S8x1 .f32) (x1 : Vec Ideal S2048x1 .f32) (r : Fin 2048) (j : Fin 8) :
    k0_pay70 (F := Ideal) x3 x1 (ix2 r j) = x1 (ix2 r 0) * x3 (ix2 j 0) := by
  unfold k0_pay70
  rw [mulf_apply, bc_col (by decide), bc_row (by decide), shapeCast_self]
  congr 1
  refine (shapeCast_apply _ shapeCasts_S8_S1x8 (ix2 0 j) (ix1 j) ?_).trans
    (shapeCast_apply x3 shapeCasts_S8x1_S8 (ix1 j) (ix2 j 0) ?_)
  · rw [Shape.rowMajor_val_one, Shape.rowMajor_val_two]; show j.val = 0 * 8 + j.val; omega
  · rw [Shape.rowMajor_val_one, Shape.rowMajor_val_two]; show j.val * 1 + 0 = j.val; omega

/-- The bias of the continuous branch goes through two shape casts unchanged. -/
theorem pay71_eq (x4 : Vec Ideal S1x8 .f32) : k0_pay71 (F := Ideal) x4 = x4 := by
  unfold k0_pay71
  exact shapeCast_shapeCast x4 shapeCasts_S1x8_S8 shapeCasts_S8_S1x8

/-! ## The last payload: continuous branch, bias, leaky ReLU -/

theorem lhs_dot8_0 (i : S2048x32.Idx) (q : dot_S2048x8_S8x32_S2048x32_1_0_0_1_n_n.contr.Idx) :
    (dot_S2048x8_S8x32_S2048x32_1_0_0_1_n_n.lhsIdx i q 0).val = (i 0).val := by
  unfold DotDims.lhsIdx
  rw [dif_neg (show ¬(0 : Fin S2048x8.rank) ∈ dot_S2048x8_S8x32_S2048x32_1_0_0_1_n_n.lhsBatch by decide), dif_pos (show (0 : Fin S2048x8.rank) ∈ dot_S2048x8_S8x32_S2048x32_1_0_0_1_n_n.lhsNonContracting by decide)]
  rfl
theorem lhs_dot8_1 (i : S2048x32.Idx) (q : dot_S2048x8_S8x32_S2048x32_1_0_0_1_n_n.contr.Idx) :
    (dot_S2048x8_S8x32_S2048x32_1_0_0_1_n_n.lhsIdx i q 1).val = (q ⟨0, by decide⟩).val :=
  dot_S2048x8_S8x32_S2048x32_1_0_0_1_n_n.lhsIdx_val_of_single rfl i q
theorem rhs_dot8_0 (i : S2048x32.Idx) (q : dot_S2048x8_S8x32_S2048x32_1_0_0_1_n_n.contr.Idx) :
    (dot_S2048x8_S8x32_S2048x32_1_0_0_1_n_n.rhsIdx i q 0).val = (q ⟨0, by decide⟩).val :=
  dot_S2048x8_S8x32_S2048x32_1_0_0_1_n_n.rhsIdx_val_of_single rfl i q
theorem rhs_dot8_1 (i : S2048x32.Idx) (q : dot_S2048x8_S8x32_S2048x32_1_0_0_1_n_n.contr.Idx) :
    (dot_S2048x8_S8x32_S2048x32_1_0_0_1_n_n.rhsIdx i q 1).val = (i 1).val := by
  unfold DotDims.rhsIdx
  rw [dif_neg (show ¬(1 : Fin S8x32.rank) ∈ dot_S2048x8_S8x32_S2048x32_1_0_0_1_n_n.rhsBatch by decide), dif_pos (show (1 : Fin S8x32.rank) ∈ dot_S2048x8_S8x32_S2048x32_1_0_0_1_n_n.rhsNonContracting by decide)]
  rfl

/-- The 2048 × 8 by 8 × 32 product into zero, at (r, o): the sum over the 8 middle coordinates. -/
theorem matmul8_apply (A : FVec Ideal S2048x8 .bf16) (B : FVec Ideal S8x32 .bf16) (r : Fin 2048) (o : Fin 32) :
    matmul dot_S2048x8_S8x32_S2048x32_1_0_0_1_n_n none A B (constant S2048x32 .f32 0x00000000#32) (ix2 r o)
      = ∑ j : Fin 8, A (ix2 r j) * B (ix2 j o) := by
  simp only [matmul]
  rw [Ideal.matmul_constant_zero_apply, ← Equiv.sum_comp (contrEquiv1 dot_S2048x8_S8x32_S2048x32_1_0_0_1_n_n 8 rfl rfl).symm]
  refine Finset.sum_congr rfl fun k _ => ?_
  have hk := contrEquiv1_symm_val dot_S2048x8_S8x32_S2048x32_1_0_0_1_n_n 8 rfl rfl k
  have el : dot_S2048x8_S8x32_S2048x32_1_0_0_1_n_n.lhsIdx (ix2 r o) ((contrEquiv1 dot_S2048x8_S8x32_S2048x32_1_0_0_1_n_n 8 rfl rfl).symm k) = ix2 r k := funext fun a => Fin.ext (by
    match a with
    | ⟨0, _⟩ => exact lhs_dot8_0 _ _
    | ⟨1, _⟩ => exact (lhs_dot8_1 _ _).trans hk)
  have er : dot_S2048x8_S8x32_S2048x32_1_0_0_1_n_n.rhsIdx (ix2 r o) ((contrEquiv1 dot_S2048x8_S8x32_S2048x32_1_0_0_1_n_n 8 rfl rfl).symm k) = ix2 k o := funext fun a => Fin.ext (by
    match a with
    | ⟨0, _⟩ => exact (rhs_dot8_0 _ _).trans hk
    | ⟨1, _⟩ => exact rhs_dot8_1 _ _)
  rw [el, er]

/-- The last payload at (r, o): the accumulator plus the continuous branch's 8 products plus the bias, through the leaky ReLU. -/
theorem pay1_apply (acc : FVec Ideal S2048x32 .f32) (v998 : FVec Ideal S2048x8 .f32) (v999 : FVec Ideal S1x8 .f32)
    (x5 : Vec Ideal S8x32 .bf16) (x6 : Vec Ideal S1x32 .f32) (r : Fin 2048) (o : Fin 32) :
    k0_pay1 (F := Ideal) acc v998 v999 x5 x6 (ix2 r o)
      = lrelu ((acc (ix2 r o) + ∑ j : Fin 8, lrelu (v998 (ix2 r j) + v999 (ix2 0 j)) * x5 (ix2 j o)) + x6 (ix2 0 o)) := by
  unfold k0_pay1
  show lrelu ((acc (ix2 r o) + matmul (F := Ideal) dot_S2048x8_S8x32_S2048x32_1_0_0_1_n_n none _ _ (constant S2048x32 .f32 0x00000000#32) (ix2 r o))
    + broadcastTo S2048x32 (shapeCast S1x32 (shapeCast S32 x6 shapeCasts_S1x32_S32) shapeCasts_S32_S1x32) broadcasts_S1x32_S2048x32 (ix2 r o)) = _
  rw [matmul8_apply, bc_row (by decide), shapeCast_shapeCast, shapeCast_self]
  congr 2
  congr 1
  refine Finset.sum_congr rfl fun j _ => ?_
  congr 1
  show lrelu (v998 (ix2 r j) + broadcastTo S2048x8 v999 broadcasts_S1x8_S2048x8 (ix2 r j)) = _
  rw [bc_row (by decide)]

/-! ## Words: the 0/1 bits the masks are made of -/

/-- A widened one-bit word read as a signed integer and converted: 1 when the bit is set, else 0. -/
theorem bit_toReal (b : BitVec 1) : (((b.setWidth 32).toInt : ℝ) : EReal) = if b = 1#1 then 1 else 0 := by
  rcases BitVec.eq_zero_or_eq_one b with rfl | rfl
  · simp
  · simp

/-- Two small numbers as 32-bit words compare equal exactly when they are equal. -/
theorem cmpi_eq_ofNat (a b : Nat) (ha : a < 2 ^ 32) (hb : b < 2 ^ 32) :
    IntOp.cmpi .eq (BitVec.ofNat 32 a) (BitVec.ofNat 32 b) = 1#1 ↔ a = b := by
  show BitVec.ofBool (BitVec.ofNat 32 a == BitVec.ofNat 32 b) = 1#1 ↔ a = b
  by_cases e : a = b
  · subst e; simp
  · have hne : BitVec.ofNat 32 a ≠ BitVec.ofNat 32 b := fun h => e (by
      have := congrArg BitVec.toNat h
      rwa [BitVec.toNat_ofNat, BitVec.toNat_ofNat, Nat.mod_eq_of_lt ha, Nat.mod_eq_of_lt hb] at this)
    rw [beq_eq_false_iff_ne.mpr hne]
    exact ⟨fun h => absurd h (by decide), fun h => absurd h e⟩

/-- An arithmetic shift right by 8 of a word below 2³¹ is the division by 256. -/
theorem shrsi8 (w : BitVec 32) (hw : w.toNat < 1024) : IntOp.shrsi .vector w 8#32 = BitVec.ofNat 32 (w.toNat / 256) := by
  unfold IntOp.shrsi
  rw [if_pos (by decide)]
  have hm : w.msb = false := by rw [BitVec.msb_eq_false_iff_two_mul_lt]; omega
  show w.sshiftRight (8#32).toNat = _
  rw [BitVec.sshiftRight_eq_of_msb_false hm]
  apply BitVec.eq_of_toNat_eq
  rw [BitVec.toNat_ushiftRight, BitVec.toNat_ofNat, Nat.shiftRight_eq_div_pow]
  show w.toNat / 256 = w.toNat / 256 % 2 ^ 32
  omega

/-- The mask "id / 256 = h" as a number. -/
theorem hiBit (w : BitVec 32) (hw : w.toNat < 1024) (h : Nat) (hh : h < 4) :
    (((BitVec.setWidth 32 (IntOp.cmpi .eq (IntOp.shrsi .vector w 8#32) (BitVec.ofNat 32 h))).toInt : ℝ) : EReal)
      = if w.toNat / 256 = h then 1 else 0 := by
  rw [bit_toReal, shrsi8 w hw]
  have := cmpi_eq_ofNat (w.toNat / 256) h (by omega) (by omega)
  by_cases hq : w.toNat / 256 = h
  · rw [if_pos (this.mpr hq), if_pos hq]
  · rw [if_neg (fun e => hq (this.mp e)), if_neg hq]

/-- The low 8 bits of a word are its remainder by 256. -/
theorem andi255 (w : BitVec 32) : IntOp.andi w 255#32 = BitVec.ofNat 32 (w.toNat % 256) := by
  unfold IntOp.andi
  apply BitVec.eq_of_toNat_eq
  have h255 : (255#32 : BitVec 32).toNat = 2 ^ 8 - 1 := by decide
  rw [BitVec.toNat_and, h255, Nat.and_two_pow_sub_one_eq_mod, BitVec.toNat_ofNat]
  have := w.isLt
  omega

/-- The one-hot bit "id mod 256 = l" as a number. -/
theorem loBit (w : BitVec 32) (l : Nat) (hl : l < 256) :
    (((BitVec.setWidth 32 (IntOp.cmpi .eq (IntOp.andi w 255#32) (BitVec.ofNat 32 l))).toInt : ℝ) : EReal)
      = if w.toNat % 256 = l then 1 else 0 := by
  rw [bit_toReal, andi255]
  have := cmpi_eq_ofNat (w.toNat % 256) l (by omega) (by omega)
  by_cases hq : w.toNat % 256 = l
  · rw [if_pos (this.mpr hq), if_pos hq]
  · rw [if_neg (fun e => hq (this.mp e)), if_neg hq]

/-! ## One table's update at an entry -/

/-- The hi-mask at (r, o): 1 when row r's id has high part h, else 0. -/
theorem hiMask_apply (x : Vec Ideal S2048x1 .i32) (r : Fin 2048) (o : Fin 32) (hw : (x (ix2 r 0)).toNat < 1024)
    (h : Nat) (hh : h < 4) :
    hiMask (F := Ideal) x (BitVec.ofNat 32 h) (ix2 r o) = if (x (ix2 r 0)).toNat / 256 = h then 1 else 0 := by
  unfold hiMask
  rw [bc_col (by decide), shapeCast_self]
  exact hiBit (x (ix2 r 0)) hw h hh

theorem lhs_dot256_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_dot256_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_dot256_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_dot256_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The 2048 × 256 by 256 × 128 product into zero, at (r, n): the sum over the 256 middle coordinates. -/
theorem matmul256_apply (A : FVec Ideal S2048x256 .bf16) (B : FVec Ideal S256x128 .bf16) (r : Fin 2048) (n : Fin 128) :
    matmul dot_S2048x256_S256x128_S2048x128_1_0_0_1_n_n none A B (constant S2048x128 .f32 0x00000000#32) (ix2 r n)
      = ∑ l : Fin 256, A (ix2 r l) * B (ix2 l n) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 r n) ((contrEquiv1 dot_S2048x256_S256x128_S2048x128_1_0_0_1_n_n 256 rfl rfl).symm k) = ix2 r k := funext fun a => Fin.ext (by
    match a with
    | ⟨0, _⟩ => exact lhs_dot256_0 _ _
    | ⟨1, _⟩ => exact (lhs_dot256_1 _ _).trans hk)
  have er : dot_S2048x256_S256x128_S2048x128_1_0_0_1_n_n.rhsIdx (ix2 r n) ((contrEquiv1 dot_S2048x256_S256x128_S2048x128_1_0_0_1_n_n 256 rfl rfl).symm k) = ix2 k n := funext fun a => Fin.ext (by
    match a with
    | ⟨0, _⟩ => exact (rhs_dot256_0 _ _).trans hk
    | ⟨1, _⟩ => exact rhs_dot256_1 _ _)
  rw [el, er]

/-- The one-hot row of row r at column l: 1 when the id's low part is l, else 0. -/
theorem oneHot_entry (x : Vec Ideal S2048x1 .i32) (r : Fin 2048) (l : Fin 256) :
    (truncf .bf16 (sitofp (F := Ideal) .f32 (extui 32 (cmpi .eq (broadcastTo S2048x256 (andi (shapeCast S2048x1 x shapeCasts_S2048x1_S2048x1) (broadcast S2048x1 255#32)) broadcasts_S2048x1_S2048x256) (broadcastTo S2048x256 (iota .tc S1x256 32 [1] iota_S1x256_d1_w32) broadcasts_S1x256_S2048x256)) natLt_1_32)) bitsLt_bf16_f32) (ix2 r l)
      = if (x (ix2 r 0)).toNat % 256 = l.val then 1 else 0 := by
  have h1 : broadcastTo S2048x256 (andi (shapeCast S2048x1 x shapeCasts_S2048x1_S2048x1) (broadcast S2048x1 255#32)) broadcasts_S2048x1_S2048x256 (ix2 r l)
      = IntOp.andi (x (ix2 r 0)) 255#32 := by
    rw [bc_col (by decide), shapeCast_self]; rfl
  have h2 : broadcastTo S2048x256 (iota .tc S1x256 32 [1] iota_S1x256_d1_w32) broadcasts_S1x256_S2048x256 (ix2 r l)
      = BitVec.ofNat 32 l.val := by
    rw [bc_row (by decide), iota_single_apply]
  show (((BitVec.setWidth 32 (IntOp.cmpi .eq
      (broadcastTo S2048x256 (andi (shapeCast S2048x1 x shapeCasts_S2048x1_S2048x1) (broadcast S2048x1 255#32)) broadcasts_S2048x1_S2048x256 (ix2 r l))
      (broadcastTo S2048x256 (iota .tc S1x256 32 [1] iota_S1x256_d1_w32) broadcasts_S1x256_S2048x256 (ix2 r l)))).toInt : ℝ) : EReal) = _
  rw [h1, h2]
  exact loBit (x (ix2 r 0)) l.val l.isLt

/-- The slab seen as a 256 × 128 matrix. -/
theorem slab_cast (M : Vec Ideal S1x256x128 .bf16) (l : Fin 256) (n : Fin 128) :
    shapeCast S256x128 M shapeCasts_S1x256x128_S256x128 (ix2 l n) = M (ix3 0 l n) := by
  refine shapeCast_apply M shapeCasts_S1x256x128_S256x128 (ix2 l n) (ix3 0 l n) ?_
  rw [Shape.rowMajor_val_three, Shape.rowMajor_val_two]
  show (0 * 256 + l.val) * 128 + n.val = l.val * 128 + n.val
  omega

/-- The one-hot product picks row (id mod 256) of the slab. -/
theorem oneHotMat_apply (x : Vec Ideal S2048x1 .i32) (M : Vec Ideal S1x256x128 .bf16) (r : Fin 2048) (n : Fin 128) :
    oneHotMat (F := Ideal) x M (ix2 r n) = M (ix3 0 ⟨(x (ix2 r 0)).toNat % 256, Nat.mod_lt _ (by norm_num)⟩ n) := by
  unfold oneHotMat
  rw [matmul256_apply]
  rw [Finset.sum_eq_single (⟨(x (ix2 r 0)).toNat % 256, Nat.mod_lt _ (by norm_num)⟩ : Fin 256)]
  · rw [oneHot_entry, if_pos rfl, one_mul, slab_cast]
  · intro l _ hl
    rw [oneHot_entry, if_neg (fun e => hl (Fin.ext e.symm)), zero_mul]
  · intro h; exact absurd (Finset.mem_univ _) h

/-- The entry of a slab that an id (as a number) selects for output lane o: row (id mod 256), lane 32·(id / 256) + o. -/
def slabAt (M : (⟨3, ![1, 256, 128]⟩ : Shape).Idx → EReal) (w : Nat) (o : Fin 32) : EReal :=
  M (ix3 0 ⟨w % 256, Nat.mod_lt _ (by norm_num)⟩ ⟨32 * (w / 256 % 4) + o.val, by omega⟩)

/-- A 32-lane slice of the 128-lane product at (r, o) is the product at lane c + o. -/
theorem slice_apply (Y : FVec Ideal S2048x128 .f32) (c : Nat) (hc : c + 32 ≤ 128) (hs : S2048x128.Slices ![0, c] S2048x32)
    (r : Fin 2048) (o : Fin 32) :
    extractStridedSlice S2048x32 ![0, c] Y hs (ix2 r o) = Y (ix2 r ⟨c + o.val, by omega⟩) :=
  extractStridedSlice_apply ![0, c] Y hs (ix2 r o) (ix2 r ⟨c + o.val, by omega⟩) (fun a => match a with
    | ⟨0, _⟩ => by show r.val = 0 + r.val; omega
    | ⟨1, _⟩ => by show c + o.val = c + o.val; rfl)

/-- With the id below 1024 exactly one hi-mask is 1: the update adds the one entry of the slab the id selects. -/
theorem tstep_apply (acc : FVec Ideal S2048x32 .f32) (x : Vec Ideal S2048x1 .i32) (M : Vec Ideal S1x256x128 .bf16)
    (r : Fin 2048) (o : Fin 32) (hw : (x (ix2 r 0)).toNat < 1024) :
    tstep (F := Ideal) acc x M (ix2 r o) = acc (ix2 r o) + slabAt M (x (ix2 r 0)).toNat o := by
  unfold tstep
  simp only [addf_apply, mulf_apply]
  rw [slice_apply _ 0 (by decide), slice_apply _ 32 (by decide), slice_apply _ 64 (by decide), slice_apply _ 96 (by decide),
    oneHotMat_apply, oneHotMat_apply, oneHotMat_apply, oneHotMat_apply,
    hiMask_apply x r o hw 0 (by decide), hiMask_apply x r o hw 1 (by decide), hiMask_apply x r o hw 2 (by decide),
    hiMask_apply x r o hw 3 (by decide)]
  unfold slabAt
  generalize (x (ix2 r 0)).toNat = w at hw ⊢
  have hq : w / 256 = 0 ∨ w / 256 = 1 ∨ w / 256 = 2 ∨ w / 256 = 3 := by omega
  rcases hq with h | h | h | h
  · rw [if_pos h, if_neg (by omega), if_neg (by omega), if_neg (by omega), one_mul, zero_mul, zero_mul, zero_mul,
      add_zero, add_zero, add_zero]
    exact congrArg (acc (ix2 r o) + ·) (congrArg M (congrArg (ix3 0 _) (Fin.ext (by
      show 0 + o.val = 32 * (w / 256 % 4) + o.val; omega))))
  · rw [if_neg (by omega), if_pos h, if_neg (by omega), if_neg (by omega), one_mul, zero_mul, zero_mul, zero_mul,
      add_zero, add_zero, add_zero]
    exact congrArg (acc (ix2 r o) + ·) (congrArg M (congrArg (ix3 0 _) (Fin.ext (by
      show 32 + o.val = 32 * (w / 256 % 4) + o.val; omega))))
  · rw [if_neg (by omega), if_neg (by omega), if_pos h, if_neg (by omega), one_mul, zero_mul, zero_mul, zero_mul,
      add_zero, add_zero, add_zero]
    exact congrArg (acc (ix2 r o) + ·) (congrArg M (congrArg (ix3 0 _) (Fin.ext (by
      show 64 + o.val = 32 * (w / 256 % 4) + o.val; omega))))
  · rw [if_neg (by omega), if_neg (by omega), if_neg (by omega), if_pos h, one_mul, zero_mul, zero_mul, zero_mul,
      add_zero, add_zero, add_zero]
    exact congrArg (acc (ix2 r o) + ·) (congrArg M (congrArg (ix3 0 _) (Fin.ext (by
      show 96 + o.val = 32 * (w / 256 % 4) + o.val; omega))))

/-! ## The 21 updates -/

/-- A run of updates adds, at (r, o), the entries its id words select, provided the words of row r are below 1024. -/
theorem fold_apply (r : Fin 2048) (o : Fin 32) :
    ∀ (L : List (Vec Ideal S2048x1 .i32 × Vec Ideal S1x256x128 .bf16)) (acc : FVec Ideal S2048x32 .f32),
      (∀ p ∈ L, (p.1 (ix2 r 0)).toNat < 1024) →
      (L.foldl (fun a p => tstep (F := Ideal) a p.1 p.2) acc) (ix2 r o)
        = acc (ix2 r o) + (L.map fun p => slabAt p.2 (p.1 (ix2 r 0)).toNat o).sum
  | [], acc, _ => by simp
  | p :: L, acc, h => by
    rw [List.foldl_cons, fold_apply r o L _ (fun q hq => h q (List.mem_cons_of_mem _ hq)),
      tstep_apply _ _ _ _ _ (h p List.mem_cons_self), List.map_cons, List.sum_cons, add_assoc]

/-- Column t of the block of ids, as the body loads it. -/
def col (x0 : Vec Ideal S2048x21 .i32) (t : Fin 21) : Vec Ideal S2048x1 .i32 :=
  View.ld x0 (Rect.unit (s := S2048x21) ![0, t.val] S2048x1.size (fun a => match a with
    | ⟨0, _⟩ => by show 0 + 2048 ≤ 2048; omega
    | ⟨1, _⟩ => by show t.val + 1 ≤ 21; omega))

/-- Slab t of the repacked tables, as the body loads it. -/
def slab (x2 : Vec Ideal S21x256x128 .bf16) (t : Fin 21) : Vec Ideal S1x256x128 .bf16 :=
  View.ld x2 (Rect.unit (s := S21x256x128) ![t.val, 0, 0] S1x256x128.size (fun a => match a with
    | ⟨0, _⟩ => by show t.val + 1 ≤ 21; omega
    | ⟨1, _⟩ => by show 0 + 256 ≤ 256; omega
    | ⟨2, _⟩ => by show 0 + 128 ≤ 128; omega))

theorem col_apply (x0 : Vec Ideal S2048x21 .i32) (t : Fin 21) (r : Fin 2048) : col x0 t (ix2 r 0) = x0 (ix2 r t) := by
  unfold col
  show x0 _ = x0 _
  exact congrArg x0 (funext fun a => match a with
    | ⟨0, _⟩ => Fin.ext (by show 0 + 1 * r.val = r.val; omega)
    | ⟨1, _⟩ => Fin.ext (by show t.val + 1 * 0 = t.val; omega))

theorem slab_apply (x2 : Vec Ideal S21x256x128 .bf16) (t : Fin 21) (l : Fin 256) (n : Fin 128) :
    slab x2 t (ix3 0 l n) = x2 (ix3 t l n) := by
  unfold slab
  show x2 _ = x2 _
  exact congrArg x2 (funext fun a => match a with
    | ⟨0, _⟩ => Fin.ext (by show t.val + 1 * 0 = t.val; omega)
    | ⟨1, _⟩ => Fin.ext (by show 0 + 1 * l.val = l.val; omega)
    | ⟨2, _⟩ => Fin.ext (by show 0 + 1 * n.val = n.val; omega))

/-- The 21 pairs the body loads are (column t, slab t) for t = 0 … 20. -/
theorem pairs_eq (x0 : Vec Ideal S2048x21 .i32) (x2 : Vec Ideal S21x256x128 .bf16) :
    pairs (F := Ideal) x0 x2 = List.ofFn fun t : Fin 21 => (col x0 t, slab x2 t) := rfl

/-- The accumulator after the 21 tables, at (r, o): the sum over the tables of the lane each id word selects. -/
theorem acc21_apply (x0 : Vec Ideal S2048x21 .i32) (x2 : Vec Ideal S21x256x128 .bf16) (r : Fin 2048) (o : Fin 32)
    (hx : ∀ t : Fin 21, (x0 (ix2 r t)).toNat < 1024) :
    acc21 (F := Ideal) x0 x2 (ix2 r o) = ∑ t : Fin 21, pick (x0 (ix2 r t)) x2 t o := by
  unfold acc21
  rw [fold_apply r o _ _ (by
    intro p hp
    rw [pairs_eq, List.mem_ofFn] at hp
    obtain ⟨t, rfl⟩ := hp
    show (col x0 t (ix2 r 0)).toNat < 1024
    rw [col_apply]; exact hx t)]
  have hz : zacc (F := Ideal) (ix2 r o) = 0 := Ideal.ofBits_zero_f32
  rw [hz, zero_add, pairs_eq, List.map_ofFn, List.sum_ofFn]
  refine Finset.sum_congr rfl fun t _ => ?_
  show slabAt (slab x2 t) (col x0 t (ix2 r 0)).toNat o = _
  rw [col_apply]
  unfold slabAt pick
  exact slab_apply x2 t _ _

/-- Entry (r, o) of what the body leaves in the output block, from the input blocks: the block-level function of the
    specification, provided the id words of row r are below 1024. -/
theorem body_apply (x0 : Vec Ideal S2048x21 .i32) (x1 : Vec Ideal S2048x1 .f32) (x2 : Vec Ideal S21x256x128 .bf16)
    (x3 : Vec Ideal S8x1 .f32) (x4 : Vec Ideal S1x8 .f32) (x5 : Vec Ideal S8x32 .bf16) (x6 : Vec Ideal S1x32 .f32)
    (r : Fin 2048) (o : Fin 32) (hx : ∀ t : Fin 21, (x0 (ix2 r t)).toNat < 1024) :
    out0_7 (F := Ideal) x0 x1 x2 x3 x4 x5 x6 (ix2 r o)
      = lrelu ((∑ t : Fin 21, pick (x0 (ix2 r t)) x2 t o
          + ∑ j : Fin 8, lrelu (x1 (ix2 r 0) * x3 (ix2 j 0) + x4 (ix2 0 j)) * x5 (ix2 j o))
        + x6 (ix2 0 o)) := by
  have hz : (![0, 0] : Fin 2 → Nat) = fun _ => 0 := funext fun a => by fin_cases a <;> rfl
  have e3 : View.ld x3 r0_42 = x3 := View.ld_unit_zero hz _ x3
  have e4 : View.ld x4 r0_43 = x4 := View.ld_unit_zero hz _ x4
  have e1 : View.ld x1 r0_44 = x1 := View.ld_unit_zero hz _ x1
  have e5 : View.ld x5 r0_45 = x5 := View.ld_unit_zero hz _ x5
  have e6 : View.ld x6 r0_46 = x6 := View.ld_unit_zero hz _ x6
  rw [out0_7_eq, e3, e4, e1, e5, e6, View.canon_unit_zero hz, pay1_apply, pay71_eq, acc21_apply x0 x2 r o hx]
  congr 3
  refine Finset.sum_congr rfl fun j _ => ?_
  rw [pay70_apply]

end Cert.KernelIdeal.Body

end
-- ==== Proof.KArray.lean ====
/-
  From blocks to the array: grid point t of 245 writes rows 2048·t … 2048·t + 2047 of the 501760 × 32 output, and what
  it writes is the block-level function of the specification at those rows; the 245 blocks cover the array.
-/
import proofs.«400103_j41858751266986_3_alg».proof.Proof.KStepValue
import Idealize.ShloMosaic.Lib.Pipeline.Value

set_option maxRecDepth 16384

noncomputable section

open scoped BigOperators

namespace Cert.KernelIdeal.Arr

open Idealize.ShloMosaic Idealize.ShloMosaic.ValueIdx Idealize.ShloMosaic.TcCoe Idealize.SL.Sem Cert.KernelIdeal Cert.KernelIdeal.Gen Cert.EmbedMlp
open Idealize.ShloMosaic.Pipeline (Dat)

variable (m : (ℓ : Loc nD τ sig) → Buf (Elt Ideal) ℓ)

/-- The block indices over the grid: at point t the ids, the feature and the output are at row block t (column block 0);
    the tables, W_c, the two biases and W's last columns are whole arrays, at block 0 on every axis. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The block of ids at point t is rows 2048·t … 2048·t + 2047 of the id array. -/
theorem ids_apply (c : Dev nD) (t : Fin cfg0.N) (r : Fin 2048) (k : Fin 21) (R : Fin 501760) (hR : R.val = 2048 * t.val + r.val) :
    (iblk m c 0 t : Vec Ideal S2048x21 .i32) (ix2 r k) = V m c main_v2 (ix2 R k) := by
  obtain ⟨⟨e0, e1⟩, -⟩ := idx_facts t
  unfold iblk
  rw [View.read_apply]
  show V m c main_v2 (((cfg0.win 0).blk t).view.emb (ix2 r k)) = V m c main_v2 (ix2 R k)
  refine congrArg (V m c main_v2) ?_
  funext a
  apply Fin.ext
  match a with
  | ⟨0, _⟩ => show win0_0.index t (0 : Fin 2) * 2048 + 1 * r.val = R.val; omega
  | ⟨1, _⟩ => show win0_0.index t (1 : Fin 2) * 21 + 1 * k.val = k.val; omega

/-- The block of the feature at point t is rows 2048·t … 2048·t + 2047 of the feature column. -/
theorem feat_apply (c : Dev nD) (t : Fin cfg0.N) (r : Fin 2048) (R : Fin 501760) (hR : R.val = 2048 * t.val + r.val) :
    (iblk m c 1 t : Vec Ideal S2048x1 .f32) (ix2 r 0) = V m c main_v1 (ix2 R 0) := by
  obtain ⟨-, ⟨e0, e1⟩, -⟩ := idx_facts t
  unfold iblk
  rw [View.read_apply]
  show V m c main_v1 (((cfg0.win 1).blk t).view.emb (ix2 r 0)) = V m c main_v1 (ix2 R 0)
  refine congrArg (V m c main_v1) ?_
  funext a
  apply Fin.ext
  match a with
  | ⟨0, _⟩ => show win0_1.index t (0 : Fin 2) * 2048 + 1 * r.val = R.val; omega
  | ⟨1, _⟩ => show win0_1.index t (1 : Fin 2) * 1 + 1 * 0 = 0; omega

/-- The repacked tables are one block: at every point the block is the whole array. -/
theorem tables_eq (c : Dev nD) (t : Fin cfg0.N) : (iblk m c 2 t : Vec Ideal S21x256x128 .bf16) = V m c main_v11 := by
  obtain ⟨-, -, ⟨e0, e1, e2⟩, -⟩ := idx_facts t
  funext j
  unfold iblk
  rw [View.read_apply]
  show V m c main_v11 (((cfg0.win 2).blk t).view.emb j) = V m c main_v11 j
  refine congrArg (V m c main_v11) ?_
  funext a
  apply Fin.ext
  match a with
  | ⟨0, _⟩ => show win0_2.index t (0 : Fin 3) * 21 + 1 * (j 0).val = (j 0).val; omega
  | ⟨1, _⟩ => show win0_2.index t (1 : Fin 3) * 256 + 1 * (j 1).val = (j 1).val; omega
  | ⟨2, _⟩ => show win0_2.index t (2 : Fin 3) * 128 + 1 * (j 2).val = (j 2).val; omega

/-- W_c is one block. -/
theorem wc_eq (c : Dev nD) (t : Fin cfg0.N) : (iblk m c 3 t : Vec Ideal S8x1 .f32) = V m c main_arg3 := by
  obtain ⟨-, -, -, ⟨e0, e1⟩, -⟩ := idx_facts t
  funext j
  unfold iblk
  rw [View.read_apply]
  show V m c main_arg3 (((cfg0.win 3).blk t).view.emb j) = V m c main_arg3 j
  refine congrArg (V m c main_arg3) ?_
  funext a
  apply Fin.ext
  match a with
  | ⟨0, _⟩ => show win0_3.index t (0 : Fin 2) * 8 + 1 * (j 0).val = (j 0).val; omega
  | ⟨1, _⟩ => show win0_3.index t (1 : Fin 2) * 1 + 1 * (j 1).val = (j 1).val; omega

/-- b_c, as a one-row matrix, is one block. -/
theorem bc_eq (c : Dev nD) (t : Fin cfg0.N) : (iblk m c 4 t : Vec Ideal S1x8 .f32) = V m c main_v15 := by
  obtain ⟨-, -, -, -, ⟨e0, e1⟩, -⟩ := idx_facts t
  funext j
  unfold iblk
  rw [View.read_apply]
  show V m c main_v15 (((cfg0.win 4).blk t).view.emb j) = V m c main_v15 j
  refine congrArg (V m c main_v15) ?_
  funext a
  apply Fin.ext
  match a with
  | ⟨0, _⟩ => show win0_4.index t (0 : Fin 2) * 1 + 1 * (j 0).val = (j 0).val; omega
  | ⟨1, _⟩ => show win0_4.index t (1 : Fin 2) * 8 + 1 * (j 1).val = (j 1).val; omega

/-- W's last 8 columns, transposed, are one block. -/
theorem wt_eq (c : Dev nD) (t : Fin cfg0.N) : (iblk m c 5 t : Vec Ideal S8x32 .bf16) = V m c main_v14 := by
  obtain ⟨-, -, -, -, -, ⟨e0, e1⟩, -⟩ := idx_facts t
  funext j
  unfold iblk
  rw [View.read_apply]
  show V m c main_v14 (((cfg0.win 5).blk t).view.emb j) = V m c main_v14 j
  refine congrArg (V m c main_v14) ?_
  funext a
  apply Fin.ext
  match a with
  | ⟨0, _⟩ => show win0_5.index t (0 : Fin 2) * 8 + 1 * (j 0).val = (j 0).val; omega
  | ⟨1, _⟩ => show win0_5.index t (1 : Fin 2) * 32 + 1 * (j 1).val = (j 1).val; omega

/-- b, as a one-row matrix, is one block. -/
theorem b_eq (c : Dev nD) (t : Fin cfg0.N) : (iblk m c 6 t : Vec Ideal S1x32 .f32) = V m c main_v16 := by
  obtain ⟨-, -, -, -, -, -, ⟨e0, e1⟩, -⟩ := idx_facts t
  funext j
  unfold iblk
  rw [View.read_apply]
  show V m c main_v16 (((cfg0.win 6).blk t).view.emb j) = V m c main_v16 j
  refine congrArg (V m c main_v16) ?_
  funext a
  apply Fin.ext
  match a with
  | ⟨0, _⟩ => show win0_6.index t (0 : Fin 2) * 1 + 1 * (j 0).val = (j 0).val; omega
  | ⟨1, _⟩ => show win0_6.index t (1 : Fin 2) * 32 + 1 * (j 1).val = (j 1).val; omega

/-- What point t writes back is rows 2048·t … 2048·t + 2047 of the block-level function of the arrays. -/
theorem flushed_eq (c : Dev nD) (hX : ∀ i : S501760x21.Idx, (V m c main_v2 i).toNat < 1024) (t : Fin cfg0.N) :
    (dats m 0 c).flushed 7 t = ((cfg0.win 7).blk t).view.read (Elt Ideal)
      (blockFn (V m c main_v2) (V m c main_v1) (V m c main_v11) (V m c main_arg3) (V m c main_v15) (V m c main_v14) (V m c main_v16)) := by
  obtain ⟨-, -, -, -, -, -, -, e0, e1⟩ := idx_facts t
  show (cfg0.win 7).cut (grid0.coords t) ((dats m 0 c).after 7 t) = _
  rw [after0_7, tables_eq, wc_eq, bc_eq, wt_eq, b_eq]
  funext y
  rw [View.read_apply]
  have hr : (y 0).val < 2048 := (y 0).isLt
  have ho : (y 1).val < 32 := (y 1).isLt
  have ht : t.val < 245 := t.isLt
  have hy : (cfg0.win 7).xinj (grid0.coords t) y = ix2 (⟨(y 0).val, hr⟩ : Fin 2048) (⟨(y 1).val, ho⟩ : Fin 32) := by
    funext a; match a with | ⟨0, _⟩ => rfl | ⟨1, _⟩ => rfl
  have hemb : ((cfg0.win 7).blk t).view.emb y = ix2 (⟨2048 * t.val + (y 0).val, by omega⟩ : Fin 501760) (⟨(y 1).val, ho⟩ : Fin 32) := by
    funext a; apply Fin.ext
    match a with
    | ⟨0, _⟩ => show win0_7.index t (0 : Fin 2) * 2048 + 1 * (y 0).val = 2048 * t.val + (y 0).val; omega
    | ⟨1, _⟩ => show win0_7.index t (1 : Fin 2) * 32 + 1 * (y 1).val = (y 1).val; omega
  have hids : ∀ k : Fin 21, (iblk m c 0 t : Vec Ideal S2048x21 .i32) (ix2 ⟨(y 0).val, hr⟩ k)
      = V m c main_v2 (ix2 (⟨2048 * t.val + (y 0).val, by omega⟩ : Fin 501760) k) := fun k => ids_apply m c t _ k _ rfl
  have hfeat : (iblk m c 1 t : Vec Ideal S2048x1 .f32) (ix2 ⟨(y 0).val, hr⟩ 0)
      = V m c main_v1 (ix2 (⟨2048 * t.val + (y 0).val, by omega⟩ : Fin 501760) 0) := feat_apply m c t _ _ rfl
  show out0_7 (F := Ideal) _ _ _ _ _ _ _ ((cfg0.win 7).xinj (grid0.coords t) y) = _
  rw [hy, hemb, cast_eq, Body.body_apply]
  · rw [hfeat]
    simp only [hids]
    rfl
  · intro k
    rw [hids k]
    exact hX _

/-- An index of the output is in point t's block iff each coordinate is in the block's range on its axis. -/
theorem mem_blk (t : Fin cfg0.N) (i : S501760x32.Idx) :
    i ∈ ((cfg0.win 7).blk t).view.set ↔ ∀ a : Fin 2, win0_7.index t a * S2048x32.size a ≤ (i a).val ∧ (i a).val < win0_7.index t a * S2048x32.size a + S2048x32.size a := by
  show i ∈ ((View.whole main_v17).slice (win0_7.rect t)).set ↔ _
  rw [View.set_slice_whole, Rect.mem_set_unit]
  exact Iff.rfl

/-- Row R of the output is in the block of point R / 2048: the 245 blocks of 2048 rows cover the 501760 rows. -/
theorem cover (i : S501760x32.Idx) : ∃ t : Fin cfg0.N, (cfg0.win 7).flush t = true ∧ i ∈ ((cfg0.win 7).blk t).view.set := by
  have hi0 : (i 0).val < 501760 := (i 0).isLt
  have hi1 : (i 1).val < 32 := (i 1).isLt
  have hq : (i 0).val / 2048 < 245 := by omega
  obtain ⟨-, -, -, -, -, -, -, e0, e1⟩ := idx_facts ⟨(i 0).val / 2048, hq⟩
  refine ⟨⟨(i 0).val / 2048, hq⟩, flush0_7 _, ?_⟩
  rw [mem_blk]
  intro a
  match a with
  | ⟨0, _⟩ =>
    show win0_7.index ⟨(i 0).val / 2048, hq⟩ (0 : Fin 2) * 2048 ≤ (i 0).val ∧ (i 0).val < win0_7.index ⟨(i 0).val / 2048, hq⟩ (0 : Fin 2) * 2048 + 2048
    rw [e0]
    show (i 0).val / 2048 * 2048 ≤ (i 0).val ∧ (i 0).val < (i 0).val / 2048 * 2048 + 2048
    omega
  | ⟨1, _⟩ =>
    show win0_7.index ⟨(i 0).val / 2048, hq⟩ (1 : Fin 2) * 32 ≤ (i 1).val ∧ (i 1).val < win0_7.index ⟨(i 0).val / 2048, hq⟩ (1 : Fin 2) * 32 + 32
    rw [e1]
    omega

/-- The output array after the region, as one function of the arrays the windows see, provided the id words are below 1024. -/
theorem final7 (c : Dev nD) (hX : ∀ i : S501760x21.Idx, (V m c main_v2 i).toNat < 1024) :
    (dats m 0 c).arrAt 7 cfg0.N
      = blockFn (V m c main_v2) (V m c main_v1) (V m c main_v11) (V m c main_arg3) (V m c main_v15) (V m c main_v14) (V m c main_v16) :=
  (dats m 0 c).arrAt_eq_of_cover 7 _ (fun t _ => flushed_eq m c hX t) cover

end Cert.KernelIdeal.Arr

end
-- ==== Proof.KHost.lean ====
/-
  The arrays the kernel's windows see, read at an index, as functions of the program's arguments (at the ideal
  instance). Before the region the host program pads the ids and the feature to 501760 rows, clamps the ids to
  [0, 999], multiplies W's first 336 columns into the tables, pads the 1000 product rows to 1024, lays them out as 256
  rows of 4·32 lanes, and transposes W's last 8 columns; the two biases are reshaped to one-row matrices.
-/
import proofs.«400103_j41858751266986_3_alg».proof.Proof.Gen.KernelIdeal.Frame
import proofs.«400103_j41858751266986_3_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import Idealize.ShloMosaic.Lib.StableHlo.Predicate
import Idealize.ShloMosaic.PureOps.Ideal.Laws

noncomputable section

open scoped BigOperators

namespace Cert.KernelIdeal.HostVal

open Idealize.ShloMosaic Idealize.ShloMosaic.ValueIdx Idealize.ShloMosaic.TcCoe Idealize.SL.Sem Cert.KernelIdeal Cert.KernelIdeal.Gen Cert.EmbedMlp

variable (m : (ℓ : Loc nD τ sig) → Buf (Elt Ideal) ℓ)

/-- The tables argument as launched, at its literal type. -/
abbrev tablesArr (c : Dev nD) : S21x1000x16.Idx → EReal := m ((c.tc : Thread nD τ).loc main_arg2)
/-- The weight argument W as launched, at its literal type. -/
abbrev wArr (c : Dev nD) : S32x344.Idx → EReal := m ((c.tc : Thread nD τ).loc main_arg5)

/-! ## Words: the clamp to [0, 999] -/

/-- Clamping any word to [0, 999] as signed numbers leaves a word below 1000. -/
theorem clamp_lt (w : BitVec 32) : (IntOp.minsi 999#32 (IntOp.maxsi 0#32 w)).toNat < 1000 := by
  unfold IntOp.minsi IntOp.maxsi
  simp only [BitVec.slt, BitVec.toInt_eq_toNat_cond, decide_eq_true_eq]
  have hw := w.isLt
  split_ifs <;> simp_all <;> omega

/-- A word below 1000 is its own clamp. -/
theorem clamp_id (k : Nat) (hk : k < 1000) : IntOp.minsi 999#32 (IntOp.maxsi 0#32 (BitVec.ofNat 32 k)) = BitVec.ofNat 32 k := by
  have h1 : (BitVec.ofNat 32 k).toInt = k := StableHlo.Predicate.toInt_ofNat_small k (by omega)
  have h0 : (0#32 : BitVec 32).toInt = 0 := by decide
  have h9 : (999#32 : BitVec 32).toInt = 999 := by decide
  unfold IntOp.minsi IntOp.maxsi
  simp only [BitVec.slt, h1, h0, h9, decide_eq_true_eq]
  rw [if_neg (by omega : ¬ ((k : Int) < 0)), h1, if_neg (by omega : ¬ ((999 : Int) < (k : Int)))]

/-- The scalar 999 broadcast to the ids' shape is 999 everywhere. -/
theorem bcast999 (i : S501760x21.Idx) : broadcastInDim S501760x21 ![] bcast_S_S501760x21 (id (constantI S_ 32 999#32)) i = 999#32 :=
  StableHlo.Predicate.bcast_scalar _ h_S_ _ i

/-- The scalar 0 broadcast to the ids' shape is 0 everywhere. -/
theorem bcast0 (i : S501760x21.Idx) : broadcastInDim S501760x21 ![] bcast_S_S501760x21 (id (constantI S_ 32 0#32)) i = 0#32 :=
  StableHlo.Predicate.bcast_scalar _ h_S_ _ i

/-! ## The ids and the feature -/

/-- The ids padded to 501760 rows with the word 0. -/
def idsPad (c : Dev nD) : S501760x21.Idx → BitVec 32 :=
  pad S501760x21 ![0, 0] ![1760, 0] ![0, 0] (m ((c.tc : Thread nD τ).loc main_arg0)) (id (constantI S_ 32 0#32)) pads_S500000x21_S501760x21_017600_000 h_S_

/-- On a row of the batch the padded ids are the ids. -/
theorem idsPad_apply (c : Dev nD) (R : Fin 500000) (t : Fin 21) :
    idsPad m c (ix2 (⟨R.val, by omega⟩ : Fin 501760) t) = m ((c.tc : Thread nD τ).loc main_arg0) (ix2 R t) :=
  pad_apply_of_inside _ _ _ _ _ _ h_S_ _ (ix2 R t) (fun a => match a with
    | ⟨0, _⟩ => by show R.val = 0 + R.val * (0 + 1); omega
    | ⟨1, _⟩ => by show t.val = 0 + t.val * (0 + 1); omega)

/-- What the region finds as the ids: the clamp of the padded ids. -/
theorem ids_term (c : Dev nD) : (V m c main_v2 : S501760x21.Idx → BitVec 32)
    = minsi (broadcastInDim S501760x21 ![] bcast_S_S501760x21 (id (constantI S_ 32 999#32)))
        (maxsi (broadcastInDim S501760x21 ![] bcast_S_S501760x21 (id (constantI S_ 32 0#32))) (idsPad m c)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  all_goals rfl

/-- At an index it is the scalar clamp of the padded id. -/
theorem ids_apply (c : Dev nD) (i : S501760x21.Idx) :
    V m c main_v2 i = IntOp.minsi 999#32 (IntOp.maxsi 0#32 (idsPad m c i)) := by
  rw [ids_term]
  show IntOp.minsi (broadcastInDim S501760x21 ![] bcast_S_S501760x21 (id (constantI S_ 32 999#32)) i)
    (IntOp.maxsi (broadcastInDim S501760x21 ![] bcast_S_S501760x21 (id (constantI S_ 32 0#32)) i) (idsPad m c i)) = _
  rw [bcast999, bcast0]

/-- What the region finds as the feature: the feature padded to 501760 rows. -/
theorem feat_term (c : Dev nD) : (V m c main_v1 : S501760x1.Idx → EReal)
    = pad S501760x1 ![0, 0] ![1760, 0] ![0, 0] (m ((c.tc : Thread nD τ).loc main_arg1)) (sitofp (F := Ideal) .f32 (constantI S_ 32 0#32)) pads_S500000x1_S501760x1_017600_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  all_goals rfl

/-- The clamped, padded ids are words below 1000, whatever the input. -/
theorem ids_lt (c : Dev nD) (i : S501760x21.Idx) : (V m c main_v2 i).toNat < 1000 := by
  rw [ids_apply]
  exact clamp_lt _

/-- On a row of the batch, an id already in [0, 1000) passes the padding and the clamp unchanged. -/
theorem ids_eq (c : Dev nD) (R : Fin 500000) (t : Fin 21) (k : Fin 1000)
    (h : m ((c.tc : Thread nD τ).loc main_arg0) (ix2 R t) = BitVec.ofNat 32 k.val) :
    V m c main_v2 (ix2 (⟨R.val, by omega⟩ : Fin 501760) t) = BitVec.ofNat 32 k.val := by
  rw [ids_apply, idsPad_apply, h]
  exact clamp_id k.val k.isLt

/-- On a row of the batch the padded feature is the feature. -/
theorem feat_eq (c : Dev nD) (R : Fin 500000) :
    V m c main_v1 (ix2 (⟨R.val, by omega⟩ : Fin 501760) (0 : Fin 1)) = m ((c.tc : Thread nD τ).loc main_arg1) (ix2 R (0 : Fin 1)) := by
  rw [feat_term]
  exact pad_apply_of_inside _ _ _ _ _ _ h_S_ _ (ix2 R (0 : Fin 1)) (fun a => match a with
    | ⟨0, _⟩ => by show R.val = 0 + R.val * (0 + 1); omega
    | ⟨1, _⟩ => by show (0 : Nat) = 0 + 0 * (0 + 1); omega)

/-! ## The repacked tables -/

/-- W's first 336 columns as 21 blocks of 16 rows and 32 columns: entry (t, e, o) is W[o, 16t + e]. -/
def wBlocks (c : Dev nD) : S21x16x32.Idx → EReal :=
  transpose S21x16x32 [1, 2, 0] (shapeCast S32x21x16 (extractStridedSlice S32x336 ![0, 0] (wArr m c) slices_S32x344_S32x336_0_0) shapeCasts_S32x336_S32x21x16) transposes_S32x21x16_S21x16x32_1_2_0

/-- Entry (t, e, o) of the blocks is W[o, 16t + e]. -/
theorem wBlocks_apply (c : Dev nD) (t : Fin 21) (e : Fin 16) (o : Fin 32) :
    wBlocks m c (ix3 t e o) = wArr m c (ix2 o (⟨16 * t.val + e.val, by omega⟩ : Fin 344)) := by
  unfold wBlocks
  refine (transpose_apply [1, 2, 0] _ transposes_S32x21x16_S21x16x32_1_2_0 (ix3 t e o) (ix3 o t e) (fun b => match b with
    | ⟨0, _⟩ => rfl
    | ⟨1, _⟩ => rfl
    | ⟨2, _⟩ => rfl)).trans ?_
  refine (shapeCast_apply _ shapeCasts_S32x336_S32x21x16 (ix3 o t e) (ix2 o (⟨16 * t.val + e.val, by omega⟩ : Fin 336))
    (by rewrite [Shape.rowMajor_val_two, Shape.rowMajor_val_three]
        show o.val * 336 + (16 * t.val + e.val) = (o.val * 21 + t.val) * 16 + e.val
        omega)).trans ?_
  exact extractStridedSlice_apply _ _ slices_S32x344_S32x336_0_0 (ix2 o (⟨16 * t.val + e.val, by omega⟩ : Fin 336)) _ (fun a => match a with
    | ⟨0, _⟩ => by show o.val = 0 + o.val; omega
    | ⟨1, _⟩ => by show 16 * t.val + e.val = 0 + (16 * t.val + e.val); omega)

/-- The products tables[t] · (block t of W), one 32-wide row per category. -/
def prodArr (c : Dev nD) : S21x1000x32.Idx → EReal :=
  Host.dotGeneral (F := Ideal) (φ₁ := .f32) (φ₂ := .f32) dot_S21x1000x16_S21x16x32_S21x1000x32_2_1_1_2_0_0 none (tablesArr m c) (wBlocks m c)

/- The operand indices of the batched product at result index i = (t, k, o) and contraction position q, axis by axis:
   the tables are read at (t, k, q), the blocks of W at (t, q, o). -/
theorem lhs_axis0 (i : S21x1000x32.Idx) (q : dot_S21x1000x16_S21x16x32_S21x1000x32_2_1_1_2_0_0.contr.Idx) :
    (dot_S21x1000x16_S21x16x32_S21x1000x32_2_1_1_2_0_0.lhsIdx i q 0).val = (i 0).val := by
  unfold DotDims.lhsIdx
  rw [dif_pos (show (0 : Fin S21x1000x16.rank) ∈ dot_S21x1000x16_S21x16x32_S21x1000x32_2_1_1_2_0_0.lhsBatch by decide)]
  rfl
theorem lhs_axis1 (i : S21x1000x32.Idx) (q : dot_S21x1000x16_S21x16x32_S21x1000x32_2_1_1_2_0_0.contr.Idx) :
    (dot_S21x1000x16_S21x16x32_S21x1000x32_2_1_1_2_0_0.lhsIdx i q 1).val = (i 1).val := by
  unfold DotDims.lhsIdx
  rw [dif_neg (show ¬(1 : Fin S21x1000x16.rank) ∈ dot_S21x1000x16_S21x16x32_S21x1000x32_2_1_1_2_0_0.lhsBatch by decide), dif_pos (show (1 : Fin S21x1000x16.rank) ∈ dot_S21x1000x16_S21x16x32_S21x1000x32_2_1_1_2_0_0.lhsNonContracting by decide)]
  rfl
theorem lhs_axis2 (i : S21x1000x32.Idx) (q : dot_S21x1000x16_S21x16x32_S21x1000x32_2_1_1_2_0_0.contr.Idx) :
    (dot_S21x1000x16_S21x16x32_S21x1000x32_2_1_1_2_0_0.lhsIdx i q 2).val = (q ⟨0, by decide⟩).val :=
  dot_S21x1000x16_S21x16x32_S21x1000x32_2_1_1_2_0_0.lhsIdx_val_of_single rfl i q
theorem rhs_axis0 (i : S21x1000x32.Idx) (q : dot_S21x1000x16_S21x16x32_S21x1000x32_2_1_1_2_0_0.contr.Idx) :
    (dot_S21x1000x16_S21x16x32_S21x1000x32_2_1_1_2_0_0.rhsIdx i q 0).val = (i 0).val := by
  unfold DotDims.rhsIdx
  rw [dif_pos (show (0 : Fin S21x16x32.rank) ∈ dot_S21x1000x16_S21x16x32_S21x1000x32_2_1_1_2_0_0.rhsBatch by decide)]
  rfl
theorem rhs_axis1 (i : S21x1000x32.Idx) (q : dot_S21x1000x16_S21x16x32_S21x1000x32_2_1_1_2_0_0.contr.Idx) :
    (dot_S21x1000x16_S21x16x32_S21x1000x32_2_1_1_2_0_0.rhsIdx i q 1).val = (q ⟨0, by decide⟩).val :=
  dot_S21x1000x16_S21x16x32_S21x1000x32_2_1_1_2_0_0.rhsIdx_val_of_single rfl i q
theorem rhs_axis2 (i : S21x1000x32.Idx) (q : dot_S21x1000x16_S21x16x32_S21x1000x32_2_1_1_2_0_0.contr.Idx) :
    (dot_S21x1000x16_S21x16x32_S21x1000x32_2_1_1_2_0_0.rhsIdx i q 2).val = (i 2).val := by
  unfold DotDims.rhsIdx
  rw [dif_neg (show ¬(2 : Fin S21x16x32.rank) ∈ dot_S21x1000x16_S21x16x32_S21x1000x32_2_1_1_2_0_0.rhsBatch by decide), dif_pos (show (2 : Fin S21x16x32.rank) ∈ dot_S21x1000x16_S21x16x32_S21x1000x32_2_1_1_2_0_0.rhsNonContracting by decide)]
  rfl

/-- Row k of product t, at lane o, is the sum over the 16 entries of the table's row against W's columns 16t … 16t+15. -/
theorem prodArr_apply (c : Dev nD) (t : Fin 21) (k : Fin 1000) (o : Fin 32) :
    prodArr m c (ix3 t k o) = ∑ e : Fin 16, tablesArr m c (ix3 t k e) * wArr m c (ix2 o (⟨16 * t.val + e.val, by omega⟩ : Fin 344)) := by
  unfold prodArr
  simp only [Host.dotGeneral]
  rw [Ideal.dotGeneral_apply, ← Equiv.sum_comp (ValueIdx.contrEquiv1 dot_S21x1000x16_S21x16x32_S21x1000x32_2_1_1_2_0_0 16 rfl rfl).symm]
  refine Finset.sum_congr rfl fun e _ => ?_
  have hk := ValueIdx.contrEquiv1_symm_val dot_S21x1000x16_S21x16x32_S21x1000x32_2_1_1_2_0_0 16 rfl rfl e
  have el : dot_S21x1000x16_S21x16x32_S21x1000x32_2_1_1_2_0_0.lhsIdx (ix3 t k o) ((ValueIdx.contrEquiv1 dot_S21x1000x16_S21x16x32_S21x1000x32_2_1_1_2_0_0 16 rfl rfl).symm e) = ix3 t k e := funext fun a => Fin.ext (by
    match a with
    | ⟨0, _⟩ => exact lhs_axis0 _ _
    | ⟨1, _⟩ => exact lhs_axis1 _ _
    | ⟨2, _⟩ => exact (lhs_axis2 _ _).trans hk)
  have er : dot_S21x1000x16_S21x16x32_S21x1000x32_2_1_1_2_0_0.rhsIdx (ix3 t k o) ((ValueIdx.contrEquiv1 dot_S21x1000x16_S21x16x32_S21x1000x32_2_1_1_2_0_0 16 rfl rfl).symm e) = ix3 t e o := funext fun a => Fin.ext (by
    match a with
    | ⟨0, _⟩ => exact rhs_axis0 _ _
    | ⟨1, _⟩ => exact (rhs_axis1 _ _).trans hk
    | ⟨2, _⟩ => exact rhs_axis2 _ _)
  rw [el, er, wBlocks_apply]

/-- What the region finds as the tables: the products padded to 1024 rows, cut into 4 groups of 256 rows, the groups laid
    side by side along the lanes. -/
theorem tables_term (c : Dev nD) : (V m c main_v11 : S21x256x128.Idx → EReal)
    = truncf (F := Ideal) .bf16 (shapeCast S21x256x128 (transpose S21x256x4x32 [0, 2, 1, 3] (shapeCast S21x4x256x32
        (pad S21x1024x32 ![0, 0, 0] ![0, 24, 0] ![0, 0, 0] (prodArr m c) (sitofp (F := Ideal) .f32 (constantI S_ 32 0#32)) pads_S21x1000x32_S21x1024x32_000_0240_000 h_S_)
        shapeCasts_S21x1024x32_S21x4x256x32) transposes_S21x4x256x32_S21x256x4x32_0_2_1_3) shapeCasts_S21x256x4x32_S21x256x128) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  all_goals rfl

/-- The lane of the repacked tables that category k < 1000 of table t selects holds row k of (tables[t] · W[:, 16t … 16t+15]ᵀ). -/
theorem pick_tables (c : Dev nD) (t : Fin 21) (k : Fin 1000) (o : Fin 32) :
    pick (BitVec.ofNat 32 k.val) (V m c main_v11) t o
      = ∑ e : Fin 16, tablesArr m c (ix3 t k e) * wArr m c (ix2 o (⟨16 * t.val + e.val, by omega⟩ : Fin 344)) := by
  have hk : (BitVec.ofNat 32 k.val).toNat = k.val := by
    rw [BitVec.toNat_ofNat]; exact Nat.mod_eq_of_lt (by have := k.isLt; omega)
  have hlt := k.isLt
  unfold pick
  rw [tables_term, truncf_apply]
  refine (shapeCast_apply _ shapeCasts_S21x256x4x32_S21x256x128 _
    (ix4 t (⟨k.val % 256, by omega⟩ : Fin 256) (⟨k.val / 256, by omega⟩ : Fin 4) o) ?_).trans ?_
  · rewrite [Shape.rowMajor_val_four, Shape.rowMajor_val_three]
    show ((t.val * 256 + k.val % 256) * 4 + k.val / 256) * 32 + o.val
      = (t.val * 256 + (BitVec.ofNat 32 k.val).toNat % 256) * 128 + (32 * ((BitVec.ofNat 32 k.val).toNat / 256 % 4) + o.val)
    rw [hk]; omega
  refine (transpose_apply [0, 2, 1, 3] _ transposes_S21x4x256x32_S21x256x4x32_0_2_1_3
    (ix4 t (⟨k.val % 256, by omega⟩ : Fin 256) (⟨k.val / 256, by omega⟩ : Fin 4) o)
    (ix4 t (⟨k.val / 256, by omega⟩ : Fin 4) (⟨k.val % 256, by omega⟩ : Fin 256) o) (fun b => match b with
    | ⟨0, _⟩ => rfl
    | ⟨1, _⟩ => rfl
    | ⟨2, _⟩ => rfl
    | ⟨3, _⟩ => rfl)).trans ?_
  refine (shapeCast_apply _ shapeCasts_S21x1024x32_S21x4x256x32
    (ix4 t (⟨k.val / 256, by omega⟩ : Fin 4) (⟨k.val % 256, by omega⟩ : Fin 256) o)
    (ix3 t (⟨k.val, by omega⟩ : Fin 1024) o)
    (by rewrite [Shape.rowMajor_val_three, Shape.rowMajor_val_four]
        show (t.val * 1024 + k.val) * 32 + o.val = ((t.val * 4 + k.val / 256) * 256 + k.val % 256) * 32 + o.val
        omega)).trans ?_
  refine (pad_apply_of_inside _ _ _ _ _ _ h_S_ (ix3 t (⟨k.val, by omega⟩ : Fin 1024) o) (ix3 t k o) (fun a => match a with
    | ⟨0, _⟩ => by show t.val = 0 + t.val * (0 + 1); omega
    | ⟨1, _⟩ => by show k.val = 0 + k.val * (0 + 1); omega
    | ⟨2, _⟩ => by show o.val = 0 + o.val * (0 + 1); omega)).trans ?_
  exact prodArr_apply m c t k o

/-! ## W's last columns and the biases -/

/-- What the region finds as W's tail: columns 336 to 343 of W, transposed. -/
theorem wtail_term (c : Dev nD) : (V m c main_v14 : S8x32.Idx → EReal)
    = truncf (F := Ideal) .bf16 (transpose S8x32 [1, 0] (extractStridedSlice S32x8 ![0, 336] (wArr m c) slices_S32x344_S32x8_0_336) transposes_S32x8_S8x32_1_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  all_goals rfl

/-- What the region finds as the continuous branch's bias. -/
theorem bc_term (c : Dev nD) : (V m c main_v15 : S1x8.Idx → EReal) = shapeCast S1x8 (m ((c.tc : Thread nD τ).loc main_arg4)) shapeCasts_S8_S1x8 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  all_goals rfl

/-- What the region finds as the output bias. -/
theorem b_term (c : Dev nD) : (V m c main_v16 : S1x32.Idx → EReal) = shapeCast S1x32 (m ((c.tc : Thread nD τ).loc main_arg6)) shapeCasts_S32_S1x32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  all_goals rfl

/-- W's last 8 columns, transposed. -/
theorem wtail_eq (c : Dev nD) (j : Fin 8) (o : Fin 32) :
    V m c main_v14 (ix2 j o) = wArr m c (ix2 o (⟨336 + j.val, by omega⟩ : Fin 344)) := by
  rw [wtail_term, truncf_apply]
  refine (transpose_apply [1, 0] _ transposes_S32x8_S8x32_1_0 (ix2 j o) (ix2 o j) (fun b => match b with
    | ⟨0, _⟩ => rfl
    | ⟨1, _⟩ => rfl)).trans ?_
  exact extractStridedSlice_apply _ _ slices_S32x344_S32x8_0_336 (ix2 o j) _ (fun a => match a with
    | ⟨0, _⟩ => by show o.val = 0 + o.val; omega
    | ⟨1, _⟩ => by show 336 + j.val = 336 + j.val; rfl)

/-- The continuous branch's bias as a one-row matrix. -/
theorem bc_eq (c : Dev nD) (j : Fin 8) : V m c main_v15 (ix2 (0 : Fin 1) j) = m ((c.tc : Thread nD τ).loc main_arg4) (ix1 j) := by
  rw [bc_term]
  exact shapeCast_apply _ shapeCasts_S8_S1x8 (ix2 (0 : Fin 1) j) (ix1 j)
    (by rewrite [Shape.rowMajor_val_one, Shape.rowMajor_val_two]; show j.val = 0 * 8 + j.val; omega)

/-- The output bias as a one-row matrix. -/
theorem b_eq (c : Dev nD) (o : Fin 32) : V m c main_v16 (ix2 (0 : Fin 1) o) = m ((c.tc : Thread nD τ).loc main_arg6) (ix1 o) := by
  rw [b_term]
  exact shapeCast_apply _ shapeCasts_S32_S1x32 (ix2 (0 : Fin 1) o) (ix1 o)
    (by rewrite [Shape.rowMajor_val_one, Shape.rowMajor_val_two]; show o.val = 0 * 32 + o.val; omega)

end Cert.KernelIdeal.HostVal

end
-- ==== Proof.KRun.lean ====
/-
  The kernel's run with its result named: after the region the host program keeps the first 500000 rows of the
  501760 × 32 output array, and on those rows the block-level function over the padded, clamped, repacked arrays is
  the specification over the arguments (an id in [0, 1000) passes padding and clamp unchanged; the lane the id picks
  out of the repacked product holds Σ_e tables[t, id, e] · W[o, 16t + e]).
-/
import proofs.«400103_j41858751266986_3_alg».proof.Proof.KArray
import proofs.«400103_j41858751266986_3_alg».proof.Proof.KHost
import Idealize.ShloMosaic.Lib.StableHlo.Run

set_option maxRecDepth 16384

noncomputable section

open scoped BigOperators

namespace Cert.KernelIdeal.Run

open Idealize.ShloMosaic Idealize.ShloMosaic.ValueIdx Idealize.ShloMosaic.TcCoe Idealize.SL.Sem Cert.KernelIdeal Cert.KernelIdeal.Gen Cert.EmbedMlp
open Idealize.ShloMosaic.StableHlo
open Idealize.ShloMosaic.Pipeline (Dat)

variable (m : (ℓ : Loc nD τ sig) → Buf (Elt Ideal) ℓ) (ρ : Dev nD → PrngReg)

/-- The result buffer after the host line that follows the region: the first 500000 rows of the output array. -/
theorem tail_result (c : Dev nD) :
    Pipeline.afterTail₀ cfgs (dats m) 0 (V0 m) [hostOps1] c main_v18
      = extractStridedSlice S500000x32 ![0, 0] ((dats m 0 c).arrAt 7 cfg0.N) slices_S501760x32_S500000x32_0_0 := by
  unfold Pipeline.afterTail₀
  show StableHlo.after hostOps1 _ (Proc.devRef .tc main_v18) = _
  after_results
  exact congrArg (fun a => extractStridedSlice S500000x32 ![0, 0] a slices_S501760x32_S500000x32_0_0)
    (Pipeline.withArrays_arr spec0 launch0.win.arr_inj c _ _ 7)

/-- The arguments at their literal types. -/
abbrev featArr (c : Dev nD) : S500000x1.Idx → EReal := m ((c.tc : Thread nD τ).loc main_arg1)
abbrev tabArr (c : Dev nD) : S21x1000x16.Idx → EReal := m ((c.tc : Thread nD τ).loc main_arg2)
abbrev wcArr (c : Dev nD) : S8x1.Idx → EReal := m ((c.tc : Thread nD τ).loc main_arg3)
abbrev bcArr (c : Dev nD) : S8.Idx → EReal := m ((c.tc : Thread nD τ).loc main_arg4)
abbrev wArr' (c : Dev nD) : S32x344.Idx → EReal := m ((c.tc : Thread nD τ).loc main_arg5)
abbrev bArr (c : Dev nD) : S32.Idx → EReal := m ((c.tc : Thread nD τ).loc main_arg6)

/-- The arrays the windows see, at their literal types. -/
abbrev idsWin (c : Dev nD) : S501760x21.Idx → BitVec 32 := V m c main_v2
abbrev featWin (c : Dev nD) : S501760x1.Idx → EReal := V m c main_v1
abbrev tabWin (c : Dev nD) : S21x256x128.Idx → EReal := V m c main_v11
abbrev wcWin (c : Dev nD) : S8x1.Idx → EReal := V m c main_arg3
abbrev bcWin (c : Dev nD) : S1x8.Idx → EReal := V m c main_v15
abbrev wtWin (c : Dev nD) : S8x32.Idx → EReal := V m c main_v14
abbrev bWin (c : Dev nD) : S1x32.Idx → EReal := V m c main_v16

/-- On the rows of the batch the output array is the specification, when every id is the word of a number below 1000. -/
theorem result_eq (c : Dev nD) (id : Fin 500000 → Fin 21 → Fin 1000)
    (hid : ∀ (R : Fin 500000) (t : Fin 21), m ((c.tc : Thread nD τ).loc main_arg0) (ix2 R t) = BitVec.ofNat 32 (id R t).val) :
    extractStridedSlice S500000x32 ![0, 0] ((dats m 0 c).arrAt 7 cfg0.N) slices_S501760x32_S500000x32_0_0
      = G id (featArr m c) (tabArr m c) (wcArr m c) (bcArr m c) (wArr' m c) (bArr m c) := by
  rw [Arr.final7 m c (fun i => lt_trans (HostVal.ids_lt m c i) (by norm_num))]
  funext i
  obtain ⟨R, o, rfl⟩ : ∃ (R : Fin 500000) (o : Fin 32), i = ix2 R o := ⟨i 0, i 1, eq_ix2 i⟩
  refine (extractStridedSlice_apply ![0, 0] _ slices_S501760x32_S500000x32_0_0 (ix2 R o)
    (ix2 (⟨R.val, by omega⟩ : Fin 501760) o) (fun a => by
      match a with
      | ⟨0, _⟩ => show R.val = 0 + R.val; omega
      | ⟨1, _⟩ => show o.val = 0 + o.val; omega)).trans ?_
  show lrelu ((∑ t : Fin 21, pick (idsWin m c (ix2 (⟨R.val, by omega⟩ : Fin 501760) t)) (tabWin m c) t o
        + ∑ j : Fin 8, lrelu (featWin m c (ix2 (⟨R.val, by omega⟩ : Fin 501760) (0 : Fin 1)) * wcWin m c (ix2 j (0 : Fin 1)) + bcWin m c (ix2 (0 : Fin 1) j)) * wtWin m c (ix2 j o))
      + bWin m c (ix2 (0 : Fin 1) o))
    = lrelu ((∑ t : Fin 21, ∑ e : Fin 16, tabArr m c (ix3 t (id R t) e) * wArr' m c (ix2 o ⟨16 * t.val + e.val, by omega⟩)
        + ∑ j : Fin 8, lrelu (featArr m c (ix2 R (0 : Fin 1)) * wcArr m c (ix2 j (0 : Fin 1)) + bcArr m c (ix1 j)) * wArr' m c (ix2 o ⟨336 + j.val, by omega⟩))
      + bArr m c (ix1 o))
  have hB : bWin m c (ix2 (0 : Fin 1) o) = bArr m c (ix1 o) := HostVal.b_eq m c o
  have hF : featWin m c (ix2 (⟨R.val, by omega⟩ : Fin 501760) (0 : Fin 1)) = featArr m c (ix2 R (0 : Fin 1)) := HostVal.feat_eq m c R
  have hWc : wcWin m c = wcArr m c := V_main_arg3 m c
  have hT : ∀ t : Fin 21, pick (idsWin m c (ix2 (⟨R.val, by omega⟩ : Fin 501760) t)) (tabWin m c) t o
      = ∑ e : Fin 16, tabArr m c (ix3 t (id R t) e) * wArr' m c (ix2 o ⟨16 * t.val + e.val, by omega⟩) := fun t => by
    have e1 : idsWin m c (ix2 (⟨R.val, by omega⟩ : Fin 501760) t) = BitVec.ofNat 32 (id R t).val :=
      HostVal.ids_eq m c R t (id R t) (hid R t)
    rw [e1]
    exact HostVal.pick_tables m c t (id R t) o
  have hC : ∀ j : Fin 8, bcWin m c (ix2 (0 : Fin 1) j) = bcArr m c (ix1 j) := fun j => HostVal.bc_eq m c j
  have hW : ∀ j : Fin 8, wtWin m c (ix2 j o) = wArr' m c (ix2 o ⟨336 + j.val, by omega⟩) := fun j => HostVal.wtail_eq m c j o
  rw [hB, hF, hWc]
  simp only [hT, hC, hW]

/-- THE KERNEL'S RUN: every weakly fair execution terminates with the result at the specification and the arguments unchanged,
    when every id is the word of a number below 1000. -/
theorem kernel_run (id : Dev nD → Fin 500000 → Fin 21 → Fin 1000)
    (hid : ∀ (c : Dev nD) (R : Fin 500000) (t : Fin 21), m ((c.tc : Thread nD τ).loc main_arg0) (ix2 R t) = BitVec.ofNat 32 (id c R t).val) :
    θ_run defs (onTc (τ := τ) (main (F := Ideal))) ⟨m, fun _ => 0, ρ⟩ fun r => ∀ c : Dev nD,
      r.2.mem ((c.tc : Thread nD τ).loc main_v18) = G (id c) (featArr m c) (tabArr m c) (wcArr m c) (bcArr m c) (wArr' m c) (bArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(((h c).2 main_v18 (Pipeline.mem_restRefs_of main_v18 (by decide) (by decide))).trans (tail_result m c)).trans (result_eq m c (id c) (hid c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Run

end
-- ==== Proof.RefValue.lean ====
/-
  The reference's result is the specification: the gather reads tables[t, id(R,t), :] (an id in [0, 1000) is neither
  wrapped nor clamped), the reshape and the concatenation lay the 21·16 + 8 numbers of a row side by side, and the
  contraction over the 344 columns splits into the 21 tables' 16-term sums and the continuous branch's 8 terms.
-/
import proofs.«400103_j41858751266986_3_alg».proof.Proof.RefStages
import proofs.«400103_j41858751266986_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Gen Cert.ReferenceIdeal.ReadP Cert.EmbedMlp

/-- The affine map of the continuous feature, before its leaky ReLU. -/
theorem v22_at (x1 : (⟨S500000x1, .f32⟩ : BufTy).Contents (Elt Ideal)) (x3 : (⟨S8x1, .f32⟩ : BufTy).Contents (Elt Ideal))
    (x4 : (⟨S8, .f32⟩ : BufTy).Contents (Elt Ideal)) (R : Fin 500000) (j : Fin 8) :
    val_main_v22 (F := Ideal) x1 x3 x4 (ix2 R j) = x1 (ix2 R 0) * x3 (ix2 j 0) + x4 (ix1 j) := by
  rw [val_main_v22_apply, val_main_v19_apply, val_main_v21_apply, val_main_v20_apply, Fin.sum_univ_one,
    val_main_v18_apply]
  have e1 : lidx_main_v19 (ix2 R j) 0 = ix2 R 0 := by
    funext a; match a with | ⟨0, _⟩ => rfl | ⟨1, _⟩ => rfl
  have e2 : idx_main_v18 (ridx_main_v19 (ix2 R j) 0) = ix2 j 0 := by
    funext a; match a with | ⟨0, _⟩ => rfl | ⟨1, _⟩ => rfl
  have e3 : idx_main_v20 (idx_main_v21 (ix2 R j)) = ix1 j := by
    funext a; match a with | ⟨0, _⟩ => rfl
  rw [e1, e2, e3]
  rfl

/-- The continuous branch at (R, j). -/
theorem v27_at (x1 : (⟨S500000x1, .f32⟩ : BufTy).Contents (Elt Ideal)) (x3 : (⟨S8x1, .f32⟩ : BufTy).Contents (Elt Ideal))
    (x4 : (⟨S8, .f32⟩ : BufTy).Contents (Elt Ideal)) (R : Fin 500000) (j : Fin 8) :
    val_main_v27 (F := Ideal) x1 x3 x4 (ix2 R j) = lrelu (x1 (ix2 R 0) * x3 (ix2 j 0) + x4 (ix1 j)) := by
  rw [val_main_v27_apply, val_main_v24_apply, val_main_v26_apply, val_main_v23_apply, val_main_v25_apply,
    val_main_cst_apply, val_main_cst_3_apply, v22_at]
  rfl

/-- The gather's dimension numbers. -/
abbrev gd := gather_S21x1000x16_S500000x21x2_S500000x21x16_2_01_n_n_01_2_1116

/-- The gather read at (R, t, e): the table entry at the two start words of (R, t), each read signed and clamped. -/
theorem gather_at (x2 : (⟨S21x1000x16, .f32⟩ : BufTy).Contents (Elt Ideal)) (idx : IVec S500000x21x2 32)
    (R : Fin 500000) (t : Fin 21) (e : Fin 16) :
    Host.gather gd x2 idx (ix3 R t e)
      = x2 (ix3 (⟨min (idx (ix3 R t 0)).toInt.toNat 20, by omega⟩ : Fin 21)
          (⟨min (idx (ix3 R t 1)).toInt.toNat 999, by omega⟩ : Fin 1000) e) := by
  have h0 : gd.start (ix3 R t e) idx 0 + gd.batchCoord (ix3 R t e) 0 + gd.offCoord (ix3 R t e) 0
      = min (idx (ix3 R t 0)).toInt.toNat 20 := by
    rw [GatherDims.batchCoord_eq_zero _ _ _ List.not_mem_nil, Nat.add_zero,
      GatherDims.offCoord_eq_zero _ _ _ (fun h => ((GatherDims.mem_sKept _ _).mp h).1 (by decide)), Nat.add_zero]
    unfold GatherDims.start
    rw [dif_pos (show (0 : Fin 3) ∈ gd.startIndexMap by decide)]
    have hsi : gd.siIdx (ix3 R t e) ⟨List.idxOf (0 : Fin 3) gd.startIndexMap,
        List.idxOf_lt_length_iff.2 (show (0 : Fin 3) ∈ gd.startIndexMap by decide)⟩ = ix3 R t 0 := by
      funext b; refine Fin.ext ?_
      match b with
      | ⟨0, _⟩ => rfl
      | ⟨1, _⟩ => rfl
      | ⟨2, _⟩ => rfl
    rw [hsi]
    rfl
  have h1 : gd.start (ix3 R t e) idx 1 + gd.batchCoord (ix3 R t e) 1 + gd.offCoord (ix3 R t e) 1
      = min (idx (ix3 R t 1)).toInt.toNat 999 := by
    rw [GatherDims.batchCoord_eq_zero _ _ _ List.not_mem_nil, Nat.add_zero,
      GatherDims.offCoord_eq_zero _ _ _ (fun h => ((GatherDims.mem_sKept _ _).mp h).1 (by decide)), Nat.add_zero]
    unfold GatherDims.start
    rw [dif_pos (show (1 : Fin 3) ∈ gd.startIndexMap by decide)]
    have hsi : gd.siIdx (ix3 R t e) ⟨List.idxOf (1 : Fin 3) gd.startIndexMap,
        List.idxOf_lt_length_iff.2 (show (1 : Fin 3) ∈ gd.startIndexMap by decide)⟩ = ix3 R t 1 := by
      funext b; refine Fin.ext ?_
      match b with
      | ⟨0, _⟩ => rfl
      | ⟨1, _⟩ => rfl
      | ⟨2, _⟩ => rfl
    rw [hsi]
    rfl
  have h2 : gd.start (ix3 R t e) idx 2 + gd.batchCoord (ix3 R t e) 2 + gd.offCoord (ix3 R t e) 2 = e.val := by
    rw [GatherDims.batchCoord_eq_zero _ _ _ List.not_mem_nil, Nat.add_zero]
    unfold GatherDims.start
    rw [dif_neg (show ¬ (2 : Fin 3) ∈ gd.startIndexMap by decide), Nat.zero_add]
    rfl
  unfold Host.gather
  congr 1
  funext a
  refine Fin.ext ?_
  match a with
  | ⟨0, _⟩ => exact h0
  | ⟨1, _⟩ => exact h1
  | ⟨2, _⟩ => exact h2

/-- A small non-negative word is not below zero in the signed order. -/
theorem slt_zero_small (k : Nat) (hk : k < 2 ^ 31) : IntOp.cmpi .slt (BitVec.ofNat 32 k) 0#32 = 0#1 := by
  apply eq_zero_of_ne_one
  intro h
  have h' := (StableHlo.Predicate.slt_iff_toNat (a := BitVec.ofNat 32 k) (b := 0#32)
    (by rw [BitVec.toNat_ofNat]; exact lt_of_le_of_lt (Nat.mod_le _ _) hk) (by decide)).mp h
  exact Nat.not_lt_zero _ h'

/-- A small non-negative word read signed is its number. -/
theorem toNat_toInt_small (k : Nat) (hk : k < 2 ^ 31) : (BitVec.ofNat 32 k).toInt.toNat = k := by
  rw [StableHlo.Predicate.toInt_ofNat_small k hk, Int.toNat_natCast]

/-- The table-index word at (R, t): the number t. -/
theorem tword (R : Fin 500000) (t : Fin 21) :
    val_main_v13 (F := Ideal) (ix3 R t (0 : Fin 1)) = BitVec.ofNat 32 t.val := by
  rw [val_main_v13_apply, val_main_v12_apply, val_main_v6_apply, val_main_v3_apply, val_main_v1_apply,
    val_main_v2_apply, val_main_c_apply, val_main_v0_apply]
  show Scalar.select (IntOp.cmpi .slt (BitVec.ofNat 32 t.val) 0#32) _ (BitVec.ofNat 32 t.val) = _
  rw [slt_zero_small _ (by have := t.isLt; omega), select_zero]

/-- The id word at (R, t), when the id is in range: unchanged by the negative-index wrap. -/
theorem idword (id : Fin 500000 → Fin 21 → Fin 1000) (x0 : (⟨S500000x21, .i32⟩ : BufTy).Contents (Elt Ideal))
    (hid : ∀ (R : Fin 500000) (t : Fin 21), x0 (ix2 R t) = BitVec.ofNat 32 (id R t).val)
    (R : Fin 500000) (t : Fin 21) :
    val_main_v14 (F := Ideal) x0 (ix3 R t (0 : Fin 1)) = BitVec.ofNat 32 (id R t).val := by
  rw [val_main_v14_apply, val_main_v11_apply, val_main_v8_apply, val_main_v7_apply, val_main_c_1_apply]
  have e : idx_main_v14 (ix3 R t (0 : Fin 1)) = ix2 R t := by
    funext a; match a with | ⟨0, _⟩ => rfl | ⟨1, _⟩ => rfl
  rw [e, hid R t, slt_zero_small _ (by have := (id R t).isLt; omega), select_zero]

/-- The start-index pair's first word is the table-index word. -/
theorem v15_fst (x0 : (⟨S500000x21, .i32⟩ : BufTy).Contents (Elt Ideal)) (R : Fin 500000) (t : Fin 21) :
    val_main_v15 (F := Ideal) x0 (ix3 R t (0 : Fin 2)) = val_main_v13 (F := Ideal) (ix3 R t (0 : Fin 1)) := by
  unfold val_main_v15
  exact concatenate_pair_apply_left (t := S500000x21x2) (s₁ := S500000x21x1) (s₂ := S500000x21x1) 2 _ _ _
    (ix3 R t (0 : Fin 2)) rfl (ix3 R t (0 : Fin 1)) (fun b => by
    match b with
    | ⟨0, _⟩ => rfl
    | ⟨1, _⟩ => rfl
    | ⟨2, _⟩ => rfl)

/-- The start-index pair's second word is the id word. -/
theorem v15_snd (x0 : (⟨S500000x21, .i32⟩ : BufTy).Contents (Elt Ideal)) (R : Fin 500000) (t : Fin 21) :
    val_main_v15 (F := Ideal) x0 (ix3 R t (1 : Fin 2)) = val_main_v14 (F := Ideal) x0 (ix3 R t (0 : Fin 1)) := by
  unfold val_main_v15
  exact concatenate_pair_apply_right (t := S500000x21x2) (s₁ := S500000x21x1) (s₂ := S500000x21x1) 2 _ _ _
    (ix3 R t (1 : Fin 2)) rfl rfl (ix3 R t (0 : Fin 1))
    (fun b hb => by
      match b with
      | ⟨0, _⟩ => rfl
      | ⟨1, _⟩ => rfl
      | ⟨2, _⟩ => exact absurd rfl hb)
    rfl

/-- The gathered row: entry (R, t, e) is the table t's row id(R, t) at e. -/
theorem v16_at (id : Fin 500000 → Fin 21 → Fin 1000) (x0 : (⟨S500000x21, .i32⟩ : BufTy).Contents (Elt Ideal))
    (x2 : (⟨S21x1000x16, .f32⟩ : BufTy).Contents (Elt Ideal))
    (hid : ∀ (R : Fin 500000) (t : Fin 21), x0 (ix2 R t) = BitVec.ofNat 32 (id R t).val)
    (R : Fin 500000) (t : Fin 21) (e : Fin 16) :
    val_main_v16 (F := Ideal) x0 x2 (ix3 R t e) = x2 (ix3 t (id R t) e) := by
  unfold val_main_v16
  rw [gather_at]
  have ht : min (val_main_v15 (F := Ideal) x0 (ix3 R t (0 : Fin 2))).toInt.toNat 20 = t.val := by
    rw [v15_fst, tword, toNat_toInt_small _ (by have := t.isLt; omega)]
    exact Nat.min_eq_left (by have := t.isLt; omega)
  have hi : min (val_main_v15 (F := Ideal) x0 (ix3 R t (1 : Fin 2))).toInt.toNat 999 = (id R t).val := by
    rw [v15_snd, idword id x0 hid, toNat_toInt_small _ (by have := (id R t).isLt; omega)]
    exact Nat.min_eq_left (by have := (id R t).isLt; omega)
  refine congrArg x2 (funext fun a => ?_)
  match a with
  | ⟨0, _⟩ => exact Fin.ext ht
  | ⟨1, _⟩ => exact Fin.ext hi
  | ⟨2, _⟩ => rfl

/-- The reshaped embedding: column 16 t + e of row R is the table t's row id(R, t) at e. -/
theorem v17_at (id : Fin 500000 → Fin 21 → Fin 1000) (x0 : (⟨S500000x21, .i32⟩ : BufTy).Contents (Elt Ideal))
    (x2 : (⟨S21x1000x16, .f32⟩ : BufTy).Contents (Elt Ideal))
    (hid : ∀ (R : Fin 500000) (t : Fin 21), x0 (ix2 R t) = BitVec.ofNat 32 (id R t).val)
    (R : Fin 500000) (t : Fin 21) (e : Fin 16) :
    val_main_v17 (F := Ideal) x0 x2 (ix2 R (⟨16 * t.val + e.val, by omega⟩ : Fin 336)) = x2 (ix3 t (id R t) e) := by
  rw [val_main_v17_apply]
  have hx : idx_main_v17 (ix2 R (⟨16 * t.val + e.val, by omega⟩ : Fin 336)) = ix3 R t e := by
    have hR := R.isLt; have ht := t.isLt; have he := e.isLt
    funext a
    match a with
    | ⟨0, _⟩ => exact Fin.ext (show (R.val * 336 + (16 * t.val + e.val)) / 336 = R.val by omega)
    | ⟨1, _⟩ => exact Fin.ext (show (R.val * 336 + (16 * t.val + e.val)) / 16 % 21 = t.val by omega)
    | ⟨2, _⟩ => exact Fin.ext (show (R.val * 336 + (16 * t.val + e.val)) % 16 = e.val by omega)
  rw [hx, v16_at id x0 x2 hid]

/-- The joined row's first 336 columns are the embedding's. -/
theorem v28_lo (x0 : (⟨S500000x21, .i32⟩ : BufTy).Contents (Elt Ideal)) (x1 : (⟨S500000x1, .f32⟩ : BufTy).Contents (Elt Ideal))
    (x2 : (⟨S21x1000x16, .f32⟩ : BufTy).Contents (Elt Ideal)) (x3 : (⟨S8x1, .f32⟩ : BufTy).Contents (Elt Ideal))
    (x4 : (⟨S8, .f32⟩ : BufTy).Contents (Elt Ideal)) (R : Fin 500000) (t : Fin 21) (e : Fin 16) :
    val_main_v28 (F := Ideal) x0 x1 x2 x3 x4 (ix2 R (⟨16 * t.val + e.val, by omega⟩ : Fin 344))
      = val_main_v17 (F := Ideal) x0 x2 (ix2 R (⟨16 * t.val + e.val, by omega⟩ : Fin 336)) := by
  unfold val_main_v28
  exact concatenate_pair_apply_left (t := S500000x344) (s₁ := S500000x336) (s₂ := S500000x8) 1 _ _ _
    (ix2 R (⟨16 * t.val + e.val, by omega⟩ : Fin 344)) rfl (ix2 R (⟨16 * t.val + e.val, by omega⟩ : Fin 336))
    (fun b => by
      match b with
      | ⟨0, _⟩ => rfl
      | ⟨1, _⟩ => rfl)

/-- The joined row's last 8 columns are the continuous branch's. -/
theorem v28_hi (x0 : (⟨S500000x21, .i32⟩ : BufTy).Contents (Elt Ideal)) (x1 : (⟨S500000x1, .f32⟩ : BufTy).Contents (Elt Ideal))
    (x2 : (⟨S21x1000x16, .f32⟩ : BufTy).Contents (Elt Ideal)) (x3 : (⟨S8x1, .f32⟩ : BufTy).Contents (Elt Ideal))
    (x4 : (⟨S8, .f32⟩ : BufTy).Contents (Elt Ideal)) (R : Fin 500000) (j : Fin 8) :
    val_main_v28 (F := Ideal) x0 x1 x2 x3 x4 (ix2 R (⟨336 + j.val, by omega⟩ : Fin 344))
      = val_main_v27 (F := Ideal) x1 x3 x4 (ix2 R j) := by
  unfold val_main_v28
  exact concatenate_pair_apply_right (t := S500000x344) (s₁ := S500000x336) (s₂ := S500000x8) 1 _ _ _
    (ix2 R (⟨336 + j.val, by omega⟩ : Fin 344)) rfl rfl (ix2 R j)
    (fun b hb => by
      match b with
      | ⟨0, _⟩ => rfl
      | ⟨1, _⟩ => exact absurd rfl hb)
    (show j.val + 336 = 336 + j.val by omega)

/-- A sum over the 344 columns splits into the 21 blocks of 16 and the last 8. -/
theorem sum_split {M : Type*} [AddCommMonoid M] (f : Fin 344 → M) :
    ∑ k : Fin 344, f k
      = ∑ t : Fin 21, ∑ e : Fin 16, f ⟨16 * t.val + e.val, by omega⟩ + ∑ j : Fin 8, f ⟨336 + j.val, by omega⟩ := by
  have hsplit : ∑ k : Fin 344, f k
      = ∑ i : Fin 336, f ⟨i.val, by omega⟩ + ∑ j : Fin 8, f ⟨336 + j.val, by omega⟩ :=
    Fin.sum_univ_add (M := M) (a := 336) (b := 8) f
  have hblocks : ∑ i : Fin 336, f ⟨i.val, by omega⟩
      = ∑ t : Fin 21, ∑ e : Fin 16, f ⟨16 * t.val + e.val, by omega⟩ := by
    have h := Equiv.sum_comp (finProdFinEquiv (m := 21) (n := 16))
      (fun i : Fin (21 * 16) => f ⟨i.val, by have := i.isLt; omega⟩)
    rw [Fintype.sum_prod_type] at h
    refine Eq.trans (Eq.symm ?_) (Eq.trans h.symm ?_)
    · rfl
    · refine Finset.sum_congr rfl fun t _ => Finset.sum_congr rfl fun e _ => congrArg f (Fin.ext ?_)
      show e.val + 16 * t.val = 16 * t.val + e.val
      omega
  rw [hsplit, hblocks]

/-- The last stage of the reference, at the ideal instance, is the specification, when every id is in [0, 1000). -/
theorem ref_value (id : Fin 500000 → Fin 21 → Fin 1000)
    (x0 : (⟨S500000x21, .i32⟩ : BufTy).Contents (Elt Ideal)) (x1 : (⟨S500000x1, .f32⟩ : BufTy).Contents (Elt Ideal))
    (x2 : (⟨S21x1000x16, .f32⟩ : BufTy).Contents (Elt Ideal)) (x3 : (⟨S8x1, .f32⟩ : BufTy).Contents (Elt Ideal))
    (x4 : (⟨S8, .f32⟩ : BufTy).Contents (Elt Ideal)) (x5 : (⟨S32x344, .f32⟩ : BufTy).Contents (Elt Ideal))
    (x6 : (⟨S32, .f32⟩ : BufTy).Contents (Elt Ideal))
    (hid : ∀ (R : Fin 500000) (t : Fin 21), x0 (ix2 R t) = BitVec.ofNat 32 (id R t).val) :
    val_main_v38 (F := Ideal) x0 x1 x2 x3 x4 x5 x6 = G id x1 x2 x3 x4 x5 x6 := by
  funext i
  obtain ⟨R, o, rfl⟩ : ∃ R o, i = ix2 R o := ⟨i 0, i 1, eq_ix2 i⟩
  have h30 : val_main_v30 (F := Ideal) x0 x1 x2 x3 x4 x5 (ix2 R o)
      = ∑ t : Fin 21, ∑ e : Fin 16, x2 (ix3 t (id R t) e) * x5 (ix2 o ⟨16 * t.val + e.val, by omega⟩)
        + ∑ j : Fin 8, lrelu (x1 (ix2 R 0) * x3 (ix2 j 0) + x4 (ix1 j)) * x5 (ix2 o ⟨336 + j.val, by omega⟩) := by
    rw [val_main_v30_apply, sum_split]
    congr 1
    · refine Finset.sum_congr rfl fun t _ => Finset.sum_congr rfl fun e _ => ?_
      rw [val_main_v29_apply]
      have el : lidx_main_v30 (ix2 R o) ⟨16 * t.val + e.val, by omega⟩
          = ix2 R (⟨16 * t.val + e.val, by omega⟩ : Fin 344) := by
        funext a; match a with | ⟨0, _⟩ => rfl | ⟨1, _⟩ => rfl
      have er : idx_main_v29 (ridx_main_v30 (ix2 R o) ⟨16 * t.val + e.val, by omega⟩)
          = ix2 o (⟨16 * t.val + e.val, by omega⟩ : Fin 344) := by
        funext a; match a with | ⟨0, _⟩ => rfl | ⟨1, _⟩ => rfl
      rw [el, er, v28_lo, v17_at id x0 x2 hid]
    · refine Finset.sum_congr rfl fun j _ => ?_
      rw [val_main_v29_apply]
      have el : lidx_main_v30 (ix2 R o) ⟨336 + j.val, by omega⟩ = ix2 R (⟨336 + j.val, by omega⟩ : Fin 344) := by
        funext a; match a with | ⟨0, _⟩ => rfl | ⟨1, _⟩ => rfl
      have er : idx_main_v29 (ridx_main_v30 (ix2 R o) ⟨336 + j.val, by omega⟩)
          = ix2 o (⟨336 + j.val, by omega⟩ : Fin 344) := by
        funext a; match a with | ⟨0, _⟩ => rfl | ⟨1, _⟩ => rfl
      rw [el, er, v28_hi, v27_at]
  have e6 : idx_main_v31 (idx_main_v32 (ix2 R o)) = ix1 o := by
    funext a; match a with | ⟨0, _⟩ => rfl
  rw [val_main_v38_apply, val_main_v35_apply, val_main_v37_apply, val_main_v34_apply, val_main_v36_apply,
    val_main_cst_4_apply, val_main_cst_5_apply, val_main_v33_apply, val_main_v32_apply, val_main_v31_apply, h30, e6]
  rfl

end Cert.ReferenceIdeal.RefValue

end
-- ==== Proof.PreRange.lean ====
/-
  What the precondition says of the category ids: each of the 500000 × 21 words is, read as a signed integer, at
  least 0 and below 1000, so it is the word of a number k < 1000.
-/
import proofs.«400103_j41858751266986_3_alg».proof.Defs
import proofs.«400103_j41858751266986_3_alg».proof.Proof.Gen.KernelIdeal
import proofs.«400103_j41858751266986_3_alg».proof.Proof.Gen.Pre_finite_inputs
import Idealize.ShloMosaic.Lib.ValueIdx
import Idealize.ShloMosaic.Lib.ReduceAll
import Idealize.ShloMosaic.Lib.StableHlo.Predicate

noncomputable section

namespace Cert.EmbedMlp

open Idealize.ShloMosaic Idealize.ShloMosaic.ValueIdx Idealize.SL.Sem

/-- The scalar shape has one index. -/
instance subsingleton_scalar_idx : Subsingleton Cert.Pre_finite_inputs.S_.Idx := ⟨fun _ _ => funext fun d => d.elim0⟩

/-- A word that is, read signed, at least 0 and below 1000 is the word of its unsigned value, and that value is below 1000. -/
theorem word_of_range (w : BitVec 32) (h0 : IntOp.cmpi .sge w 0#32 = 1#1) (h1 : IntOp.cmpi .slt w 1000#32 = 1#1) :
    w.toNat < 1000 ∧ w = BitVec.ofNat 32 w.toNat := by
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  have hc := BitVec.toInt_eq_toNat_cond w
  have hl := w.isLt
  refine ⟨?_, BitVec.eq_of_toNat_eq (by rw [BitVec.toNat_ofNat, Nat.mod_eq_of_lt hl])⟩
  split at hc <;> omega

/-- Under the precondition every category id is the word of a number below 1000. -/
theorem ids_of_pre (m : (ℓ : Loc Cert.KernelIdeal.nD Cert.KernelIdeal.τ Cert.KernelIdeal.sig) → Buf (Elt Ideal) ℓ)
    (h : Cert.Pre_KernelIdeal m) (c : Dev Cert.KernelIdeal.nD) :
    ∃ id : Fin 500000 → Fin 21 → Fin 1000, ∀ (R : Fin 500000) (t : Fin 21),
      m ((c.tc : Thread Cert.KernelIdeal.nD Cert.KernelIdeal.τ).loc Cert.KernelIdeal.main_arg0) (ix2 R t) = BitVec.ofNat 32 (id R t).val := by
  have h1 := congrFun (h c) ValueIdx.ix0
  -- the predicate is a conjunction of eight bits; the last two speak of the ids
  obtain ⟨h32, h35⟩ := IntOp.andi_eq_one.1 h1
  obtain ⟨-, h31⟩ := IntOp.andi_eq_one.1 h32
  -- each of the two is an "all" over the 500000 × 21 words
  have hge := fun i => Host.reduce_andi_all _ _ _ _ ValueIdx.ix0 h31 i
  have hlt := fun i => Host.reduce_andi_all _ _ _ _ ValueIdx.ix0 h35 i
  have hbound : ∀ (R : Fin 500000) (t : Fin 21),
      (m ((c.tc : Thread Cert.KernelIdeal.nD Cert.KernelIdeal.τ).loc Cert.KernelIdeal.main_arg0) (ix2 R t)).toNat < 1000
      ∧ m ((c.tc : Thread Cert.KernelIdeal.nD Cert.KernelIdeal.τ).loc Cert.KernelIdeal.main_arg0) (ix2 R t)
        = BitVec.ofNat 32 (m ((c.tc : Thread Cert.KernelIdeal.nD Cert.KernelIdeal.τ).loc Cert.KernelIdeal.main_arg0) (ix2 R t)).toNat :=
    fun R t => word_of_range _ (hge (ix2 R t)) (hlt (ix2 R t))
  exact ⟨fun R t => ⟨_, (hbound R t).1⟩, fun R t => (hbound R t).2⟩

end Cert.EmbedMlp

end
-- ==== Proof.lean ====
/-
  The certificate's claim, assembled.

  Both programs compute, on a batch of 500000 rows, out[R, o] = lrelu( Σ_t Σ_e tables[t, id(R,t), e] · W[o, 16t + e]
  + Σ_j lrelu(x[R] · W_c[j] + b_c[j]) · W[o, 336 + j] + b[o] ) on the extended reals, where the precondition gives
  every category id in [0, 1000): the reference by a gather and one 344-column contraction, the kernel by folding W's
  first 336 columns into the tables beforehand and selecting the row with a one-hot product over id mod 256 and four
  masks over id / 256. The two kernel programs' frames are their generated frame certificates; the reference's frame
  is its run with the result dropped; the idealization rewrote nothing.
-/
import proofs.«400103_j41858751266986_3_alg».proof.Defs
import proofs.«400103_j41858751266986_3_alg».proof.Proof.Gen.Kernel
import proofs.«400103_j41858751266986_3_alg».proof.Proof.Gen.Kernel.Frame
import proofs.«400103_j41858751266986_3_alg».proof.Proof.Gen.KernelIdeal
import proofs.«400103_j41858751266986_3_alg».proof.Proof.Gen.KernelIdeal.Frame
import proofs.«400103_j41858751266986_3_alg».proof.Proof.Gen.ReferenceIdeal
import proofs.«400103_j41858751266986_3_alg».proof.Proof.Gen.Pre_finite_inputs
import proofs.«400103_j41858751266986_3_alg».proof.Proof.KRun
import proofs.«400103_j41858751266986_3_alg».proof.Proof.RefRun
import proofs.«400103_j41858751266986_3_alg».proof.Proof.RefValue
import proofs.«400103_j41858751266986_3_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the specification of the arguments, which agree. -/
theorem algebraic : Cert.algebraic_KernelIdeal_ReferenceIdeal := by
  intro m ρ m' ρ' hpre hagree
  choose id hid using fun c => Cert.EmbedMlp.ids_of_pre m hpre c
  refine ⟨_, Cert.KernelIdeal.Run.kernel_run m ρ id hid, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2.1, (hagree c).2.2.2.2.2.1,
    (hagree c).2.2.2.2.2.2]
  exact Cert.ReferenceIdeal.RefValue.ref_value (id c) _ _ _ _ _ _ _ (hid c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
